-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x500000 : Shape := ⟨2, ![2, 500000]⟩
abbrev S500000x16 : Shape := ⟨2, ![500000, 16]⟩
abbrev S110000x64 : Shape := ⟨2, ![110000, 64]⟩
abbrev S20000x64 : Shape := ⟨2, ![20000, 64]⟩
abbrev S10000x64 : Shape := ⟨2, ![10000, 64]⟩
abbrev S16x64 : Shape := ⟨2, ![16, 64]⟩
abbrev S64 : Shape := ⟨1, ![64]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S110000x64 : S_.BroadcastsInDim S110000x64 (![] : Fin 0 → Fin S110000x64.rank)
  reducesTo_S110000x64_S_d0_1 : S110000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S16x64 .f32) (main_arg11 : FVec F S64 .f32) (main_v33 : IVec S_ 1) : IVec S_ 1 :=
  let main_v34 : FVec F S16x64 .f32 := Host.absf main_arg10
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg7 : FVec F S10000x64 .f32) (main_arg8 : FVec F S16x64 .f32) (main_arg9 : FVec F S64 .f32) (main_arg10 : FVec F S16x64 .f32) (main_arg11 : FVec F S64 .f32) (main_v13 : IVec S_ 1) (main_v16 : IVec S20000x64 1) : IVec S_ 1 :=
  let main_c_5 : IVec S_ 1 := constantI S_ 1 1#1
  let main_v17 : IVec S_ 1 := (fun x v => Host.reduce IntOp.andi x v reducesTo_S20000x64_S_d0_1 h_S_) main_v16 main_c_5
  let main_v18 : IVec S_ 1 := andi main_v13 main_v17
  let main_v19 : FVec F S10000x64 .f32 := Host.absf main_arg7
  let main_cst_6 : FVec F S_ .f32 := constant S_ .f32 0x7F800000#32
  let main_v20 : FVec F S10000x64 .f32 := broadcastInDim S10000x64 ![] bcast_S_S10000x64 main_cst_6
  let main_v21 : IVec S10000x64 1 := cmpf .olt main_v19 main_v20
  let main_c_7 : IVec S_ 1 := constantI S_ 1 1#1
  let main_v22 : IVec S_ 1 := (fun x v => Host.reduce IntOp.andi x v reducesTo_S10000x64_S_d0_1 h_S_) main_v21 main_c_7
  let main_v23 : IVec S_ 1 := andi main_v18 main_v22
  let main_v24 : FVec F S16x64 .f32 := Host.absf main_arg8
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : IVec S2x500000 32) (main_arg1 : IVec S2x500000 32) (main_arg2 : IVec S2x500000 32) (main_arg3 : FVec F S500000x16 .f32) (main_arg4 : FVec F S500000x16 .f32) (main_arg5 : FVec F S110000x64 .f32) (main_arg6 : FVec F S20000x64 .f32) (main_arg7 : FVec F S10000x64 .f32) (main_arg8 : FVec F S16x64 .f32) (main_arg9 : FVec F S64 .f32) (main_arg10 : FVec F S16x64 .f32) (main_arg11 : FVec F S64 .f32) : IVec S_ 1 :=
  let main_v0 : FVec F S500000x16 .f32 := Host.absf main_arg3
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S500000x16 .f32 := Host.absf main_arg4
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S110000x64 .f32 := Host.absf main_arg5
  let main_cst_2 : FVec F S_ .f32 := constant S_ .f32 0x7F800000#32
  let main_v10 : FVec F S110000x64 .f32 := broadcastInDim S110000x64 ![] bcast_S_S110000x64 main_cst_2
  let main_v11 : IVec S110000x64 1 := cmpf .olt main_v9 main_v10
  let main_c_3 : IVec S_ 1 := constantI S_ 1 1#1
  let main_v12 : IVec S_ 1 := (fun x v => Host.reduce IntOp.andi x v reducesTo_S110000x64_S_d0_1 h_S_) main_v11 main_c_3
  let main_v13 : IVec S_ 1 := andi main_v8 main_v12
  let main_v14 : FVec F S20000x64 .f32 := Host.absf main_arg6
  let main_cst_4 : FVec F S_ .f32 := constant S_ .f32 0x7F800000#32
  let main_v15 : FVec F S20000x64 .f32 := broadcastInDim S20000x64 ![] bcast_S_S20000x64 main_cst_4
  let main_v16 : IVec S20000x64 1 := cmpf .olt main_v14 main_v15
  fn_part1 (F := F) main_arg7 main_arg8 main_arg9 main_arg10 main_arg11 main_v13 main_v16
-- ==== Kernel.lean ====
abbrev S2x500000 : Shape := ⟨2, ![2, 500000]⟩
abbrev S500000x16 : Shape := ⟨2, ![500000, 16]⟩
abbrev S110000x64 : Shape := ⟨2, ![110000, 64]⟩
abbrev S20000x64 : Shape := ⟨2, ![20000, 64]⟩
abbrev S10000x64 : Shape := ⟨2, ![10000, 64]⟩
abbrev S16x64 : Shape := ⟨2, ![16, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S110000 : Shape := ⟨1, ![110000]⟩
abbrev S500000x1 : Shape := ⟨2, ![500000, 1]⟩
abbrev S500000x64 : Shape := ⟨2, ![500000, 64]⟩
abbrev S20000 : Shape := ⟨1, ![20000]⟩
abbrev S10000 : Shape := ⟨1, ![10000]⟩
abbrev S503808x64 : Shape := ⟨2, ![503808, 64]⟩
abbrev S503808x16 : Shape := ⟨2, ![503808, 16]⟩
abbrev S503808 : Shape := ⟨1, ![503808]⟩
abbrev S4096x64 : Shape := ⟨2, ![4096, 64]⟩
abbrev S4096x16 : Shape := ⟨2, ![4096, 16]⟩
abbrev S4096 : Shape := ⟨1, ![4096]⟩
abbrev S1x64 : Shape := ⟨2, ![1, 64]⟩

abbrev nBuf : Space → Nat
  | .hbm => 353
  | .vmem => 22
  | .smem => 0
  | _ => 0

abbrev hbmTy0_0 (i : Nat) : BufTy := match i % 128 with
  | 0 => ⟨S2x500000, .i32⟩
  | 1 => ⟨S2x500000, .i32⟩
  | 2 => ⟨S2x500000, .i32⟩
  | 3 => ⟨S500000x16, .f32⟩
  | 4 => ⟨S500000x16, .f32⟩
  | 5 => ⟨S110000x64, .f32⟩
  | 6 => ⟨S20000x64, .f32⟩
  | 7 => ⟨S10000x64, .f32⟩
  | 8 => ⟨S16x64, .f32⟩
  | 9 => ⟨S64, .f32⟩
  | 10 => ⟨S16x64, .f32⟩
  | 11 => ⟨S64, .f32⟩
  | 12 => ⟨S1x500000, .i32⟩
  | 13 => ⟨S500000, .i32⟩
  | 14 => ⟨S1x500000, .i32⟩
  | 15 => ⟨S500000, .i32⟩
  | 16 => ⟨S_, .f32⟩
  | 17 => ⟨S500000, .f32⟩
  | 18 => ⟨S_, .f32⟩
  | 19 => ⟨S110000, .f32⟩
  | 20 => ⟨S500000x1, .i32⟩
  | 21 => ⟨S110000, .f32⟩
  | 22 => ⟨S_, .f32⟩
  | 23 => ⟨S110000, .f32⟩
  | 24 => ⟨S110000, .i1⟩
  | 25 => ⟨S_, .f32⟩
  | 26 => ⟨S110000, .f32⟩
  | 27 => ⟨S110000, .f32⟩
  | 28 => ⟨S110000, .f32⟩
  | 29 => ⟨S_, .f32⟩
  | 30 => ⟨S_, .f32⟩
  | 31 => ⟨S110000, .f32⟩
  | 32 => ⟨S110000, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000, .f32⟩
  | 51 => ⟨S500000, .f32⟩
  | 52 => ⟨S_, .f32⟩
  | 53 => ⟨S110000x64, .f32⟩
  | 54 => ⟨S110000x64, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x64, .f32⟩
  | 64 => ⟨S500000x1, .f32⟩
  | 65 => ⟨S500000x64, .f32⟩
  | 66 => ⟨S500000x64, .f32⟩
  | 67 => ⟨S_, .f32⟩
  | 68 => ⟨S110000x64, .f32⟩
  | 69 => ⟨S500000x1, .i32⟩
  | 70 => ⟨S110000x64, .f32⟩
  | 71 => ⟨S_, .f32⟩
  | 72 => ⟨S110000x64, .f32⟩
  | 73 => ⟨S110000x64, .f32⟩
  | 74 => ⟨S110000x64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x64, .f32⟩
  | 84 => ⟨S500000x1, .f32⟩
  | 85 => ⟨S500000x64, .f32⟩
  | 86 => ⟨S500000x64, .f32⟩
  | 87 => ⟨S_, .f32⟩
  | 88 => ⟨S110000x64, .f32⟩
  | 89 => ⟨S500000x1, .i32⟩
  | 90 => ⟨S110000x64, .f32⟩
  | 91 => ⟨S_, .f32⟩
  | 92 => ⟨S110000x64, .f32⟩
  | 93 => ⟨S110000x64, .f32⟩
  | 94 => ⟨S110000x64, .f32⟩
  | 95 => ⟨S1x500000, .i32⟩
  | 96 => ⟨S500000, .i32⟩
  | 97 => ⟨S1x500000, .i32⟩
  | 98 => ⟨S500000, .i32⟩
  | 99 => ⟨S_, .f32⟩
  | 100 => ⟨S500000, .f32⟩
  | 101 => ⟨S_, .f32⟩
  | 102 => ⟨S20000, .f32⟩
  | 103 => ⟨S500000x1, .i32⟩
  | 104 => ⟨S20000, .f32⟩
  | 105 => ⟨S_, .f32⟩
  | 106 => ⟨S20000, .f32⟩
  | 107 => ⟨S20000, .i1⟩
  | 108 => ⟨S_, .f32⟩
  | 109 => ⟨S20000, .f32⟩
  | 110 => ⟨S20000, .f32⟩
  | 111 => ⟨S20000, .f32⟩
  | 112 => ⟨S_, .f32⟩
  | 113 => ⟨S_, .f32⟩
  | 114 => ⟨S20000, .f32⟩
  | 115 => ⟨S20000, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000, .f32⟩
  | 125 => ⟨S_, .i32⟩
  | 126 => ⟨S500000, .i32⟩
  | 127 => ⟨S500000, .i1⟩
  | _ => ⟨S2x500000, .i32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S500000, .f32⟩
  | 7 => ⟨S_, .f32⟩
  | 8 => ⟨S20000x64, .f32⟩
  | 9 => ⟨S20000x64, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x64, .f32⟩
  | 19 => ⟨S500000x1, .f32⟩
  | 20 => ⟨S500000x64, .f32⟩
  | 21 => ⟨S500000x64, .f32⟩
  | 22 => ⟨S_, .f32⟩
  | 23 => ⟨S20000x64, .f32⟩
  | 24 => ⟨S500000x1, .i32⟩
  | 25 => ⟨S20000x64, .f32⟩
  | 26 => ⟨S_, .f32⟩
  | 27 => ⟨S20000x64, .f32⟩
  | 28 => ⟨S20000x64, .f32⟩
  | 29 => ⟨S20000x64, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x64, .f32⟩
  | 39 => ⟨S500000x1, .f32⟩
  | 40 => ⟨S500000x64, .f32⟩
  | 41 => ⟨S500000x64, .f32⟩
  | 42 => ⟨S_, .f32⟩
  | 43 => ⟨S20000x64, .f32⟩
  | 44 => ⟨S500000x1, .i32⟩
  | 45 => ⟨S20000x64, .f32⟩
  | 46 => ⟨S_, .f32⟩
  | 47 => ⟨S20000x64, .f32⟩
  | 48 => ⟨S20000x64, .f32⟩
  | 49 => ⟨S20000x64, .f32⟩
  | 50 => ⟨S1x500000, .i32⟩
  | 51 => ⟨S500000, .i32⟩
  | 52 => ⟨S1x500000, .i32⟩
  | 53 => ⟨S500000, .i32⟩
  | 54 => ⟨S_, .f32⟩
  | 55 => ⟨S500000, .f32⟩
  | 56 => ⟨S_, .f32⟩
  | 57 => ⟨S10000, .f32⟩
  | 58 => ⟨S500000x1, .i32⟩
  | 59 => ⟨S10000, .f32⟩
  | 60 => ⟨S_, .f32⟩
  | 61 => ⟨S10000, .f32⟩
  | 62 => ⟨S10000, .i1⟩
  | 63 => ⟨S_, .f32⟩
  | 64 => ⟨S10000, .f32⟩
  | 65 => ⟨S10000, .f32⟩
  | 66 => ⟨S10000, .f32⟩
  | 67 => ⟨S_, .f32⟩
  | 68 => ⟨S_, .f32⟩
  | 69 => ⟨S10000, .f32⟩
  | 70 => ⟨S10000, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000, .f32⟩
  | 89 => ⟨S500000, .f32⟩
  | 90 => ⟨S_, .f32⟩
  | 91 => ⟨S10000x64, .f32⟩
  | 92 => ⟨S10000x64, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x64, .f32⟩
  | 102 => ⟨S500000x1, .f32⟩
  | 103 => ⟨S500000x64, .f32⟩
  | 104 => ⟨S500000x64, .f32⟩
  | 105 => ⟨S_, .f32⟩
  | 106 => ⟨S10000x64, .f32⟩
  | 107 => ⟨S500000x1, .i32⟩
  | 108 => ⟨S10000x64, .f32⟩
  | 109 => ⟨S_, .f32⟩
  | 110 => ⟨S10000x64, .f32⟩
  | 111 => ⟨S10000x64, .f32⟩
  | 112 => ⟨S10000x64, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x64, .f32⟩
  | 122 => ⟨S500000x1, .f32⟩
  | 123 => ⟨S500000x64, .f32⟩
  | 124 => ⟨S500000x64, .f32⟩
  | 125 => ⟨S_, .f32⟩
  | 126 => ⟨S10000x64, .f32⟩
  | 127 => ⟨S500000x1, .i32⟩
  | _ => ⟨S2x500000, .i32⟩

abbrev hbmTy0_2 (i : Nat) : BufTy := match i % 128 with
  | 0 => ⟨S10000x64, .f32⟩
  | 1 => ⟨S_, .f32⟩
  | 2 => ⟨S10000x64, .f32⟩
  | 3 => ⟨S10000x64, .f32⟩
  | 4 => ⟨S10000x64, .f32⟩
  | 5 => ⟨S1x500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x64, .f32⟩
  | 27 => ⟨S1x500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x64, .f32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x64, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x64, .f32⟩
  | 71 => ⟨S_, .i32⟩
  | 72 => ⟨S_, .f32⟩
  | 73 => ⟨S503808x64, .f32⟩
  | 74 => ⟨S_, .i32⟩
  | 75 => ⟨S_, .f32⟩
  | 76 => ⟨S503808x64, .f32⟩
  | 77 => ⟨S_, .i32⟩
  | 78 => ⟨S_, .f32⟩
  | 79 => ⟨S503808x64, .f32⟩
  | 80 => ⟨S_, .i32⟩
  | 81 => ⟨S_, .f32⟩
  | 82 => ⟨S503808x64, .f32⟩
  | 83 => ⟨S_, .i32⟩
  | 84 => ⟨S_, .f32⟩
  | 85 => ⟨S503808x64, .f32⟩
  | 86 => ⟨S_, .i32⟩
  | 87 => ⟨S_, .f32⟩
  | 88 => ⟨S503808x64, .f32⟩
  | 89 => ⟨S_, .i32⟩
  | 90 => ⟨S_, .f32⟩
  | 91 => ⟨S503808x16, .f32⟩
  | 92 => ⟨S_, .i32⟩
  | 93 => ⟨S_, .f32⟩
  | 94 => ⟨S503808x16, .f32⟩
  | 95 => ⟨S503808, .f32⟩
  | 96 => ⟨S500000, .f32⟩
  | _ => ⟨S2x500000, .i32⟩

abbrev hbmTy (i : Nat) : BufTy := match i / 128 with
  | 0 => hbmTy0_0 i
  | 1 => hbmTy0_1 i
  | 2 => hbmTy0_2 i
  | _ => ⟨S2x500000, .i32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x16, .f32⟩
  | .local _ .vmem, ⟨13, _⟩ => ⟨S4096x16, .f32⟩
  | .local _ .vmem, ⟨14, _⟩ => ⟨S4096x16, .f32⟩
  | .local _ .vmem, ⟨15, _⟩ => ⟨S4096x16, .f32⟩
  | .local _ .vmem, ⟨16, _⟩ => ⟨S16x64, .f32⟩
  | .local _ .vmem, ⟨17, _⟩ => ⟨S64, .f32⟩
  | .local _ .vmem, ⟨18, _⟩ => ⟨S16x64, .f32⟩
  | .local _ .vmem, ⟨19, _⟩ => ⟨S64, .f32⟩
  | .local _ .vmem, ⟨20, _⟩ => ⟨S4096, .f32⟩
  | .local _ .vmem, ⟨21, _⟩ => ⟨S4096, .f32⟩
  | _, _ => ⟨S2x500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_cst : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v13 : Ref sig .tc := ⟨.hbm, 32, rfl⟩
abbrev main_call0_c : Ref sig .tc := ⟨.hbm, 33, rfl⟩
abbrev main_call0_v14 : Ref sig .tc := ⟨.hbm, 34, rfl⟩
abbrev main_call0_v15 : Ref sig .tc := ⟨.hbm, 35, rfl⟩
abbrev main_call0_c_4 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_c_5 : Ref sig .tc := ⟨.hbm, 42, rfl⟩
abbrev main_call0_v21 : Ref sig .tc := ⟨.hbm, 43, rfl⟩
abbrev main_call0_v22 : Ref sig .tc := ⟨.hbm, 44, rfl⟩
abbrev main_call0_c_6 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_call0_cst_7 : Ref sig .tc := ⟨.hbm, 52, rfl⟩
abbrev main_call0_v29 : Ref sig .tc := ⟨.hbm, 53, rfl⟩
abbrev main_call0_v30 : Ref sig .tc := ⟨.hbm, 54, rfl⟩
abbrev main_call0_c_8 : Ref sig .tc := ⟨.hbm, 55, rfl⟩
abbrev main_call0_v31 : Ref sig .tc := ⟨.hbm, 56, rfl⟩
abbrev main_call0_v32 : Ref sig .tc := ⟨.hbm, 57, rfl⟩
abbrev main_call0_c_9 : Ref sig .tc := ⟨.hbm, 58, rfl⟩
abbrev main_call0_v33 : Ref sig .tc := ⟨.hbm, 59, rfl⟩
abbrev main_call0_v34 : Ref sig .tc := ⟨.hbm, 60, rfl⟩
abbrev main_call0_v35 : Ref sig .tc := ⟨.hbm, 61, rfl⟩
abbrev main_call0_v36 : Ref sig .tc := ⟨.hbm, 62, rfl⟩
abbrev main_call0_v37 : Ref sig .tc := ⟨.hbm, 63, rfl⟩
abbrev main_call0_v38 : Ref sig .tc := ⟨.hbm, 64, rfl⟩
abbrev main_call0_v39 : Ref sig .tc := ⟨.hbm, 65, rfl⟩
abbrev main_call0_v40 : Ref sig .tc := ⟨.hbm, 66, rfl⟩
abbrev main_call0_cst_10 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_cst_11 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_c_12 : Ref sig .tc := ⟨.hbm, 75, rfl⟩
abbrev main_call0_v47 : Ref sig .tc := ⟨.hbm, 76, rfl⟩
abbrev main_call0_v48 : Ref sig .tc := ⟨.hbm, 77, rfl⟩
abbrev main_call0_c_13 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_v55 : Ref sig .tc := ⟨.hbm, 85, rfl⟩
abbrev main_call0_v56 : Ref sig .tc := ⟨.hbm, 86, rfl⟩
abbrev main_call0_cst_14 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_cst_15 : Ref sig .tc := ⟨.hbm, 91, rfl⟩
abbrev main_call0_v60 : Ref sig .tc := ⟨.hbm, 92, rfl⟩
abbrev main_call0_v61 : Ref sig .tc := ⟨.hbm, 93, rfl⟩
abbrev main_call0_v62 : Ref sig .tc := ⟨.hbm, 94, rfl⟩
abbrev main_call0_v63 : Ref sig .tc := ⟨.hbm, 95, rfl⟩
abbrev main_call0_v64 : Ref sig .tc := ⟨.hbm, 96, rfl⟩
abbrev main_call0_v65 : Ref sig .tc := ⟨.hbm, 97, rfl⟩
abbrev main_call0_v66 : Ref sig .tc := ⟨.hbm, 98, rfl⟩
abbrev main_call0_cst_16 : Ref sig .tc := ⟨.hbm, 99, rfl⟩
abbrev main_call0_v67 : Ref sig .tc := ⟨.hbm, 100, rfl⟩
abbrev main_call0_cst_17 : Ref sig .tc := ⟨.hbm, 101, rfl⟩
abbrev main_call0_v68 : Ref sig .tc := ⟨.hbm, 102, rfl⟩
abbrev main_call0_v69 : Ref sig .tc := ⟨.hbm, 103, rfl⟩
abbrev main_call0_v70 : Ref sig .tc := ⟨.hbm, 104, rfl⟩
abbrev main_call0_cst_18 : Ref sig .tc := ⟨.hbm, 105, rfl⟩
abbrev main_call0_v71 : Ref sig .tc := ⟨.hbm, 106, rfl⟩
abbrev main_call0_v72 : Ref sig .tc := ⟨.hbm, 107, rfl⟩
abbrev main_call0_cst_19 : Ref sig .tc := ⟨.hbm, 108, rfl⟩
abbrev main_call0_v73 : Ref sig .tc := ⟨.hbm, 109, rfl⟩
abbrev main_call0_v74 : Ref sig .tc := ⟨.hbm, 110, rfl⟩
abbrev main_call0_v75 : Ref sig .tc := ⟨.hbm, 111, rfl⟩
abbrev main_call0_cst_20 : Ref sig .tc := ⟨.hbm, 112, rfl⟩
abbrev main_call0_call1_v0 : Ref sig .tc := ⟨.hbm, 113, rfl⟩
abbrev main_call0_call1_v1 : Ref sig .tc := ⟨.hbm, 114, rfl⟩
abbrev main_call0_v76 : Ref sig .tc := ⟨.hbm, 115, rfl⟩
abbrev main_call0_c_21 : Ref sig .tc := ⟨.hbm, 116, rfl⟩
abbrev main_call0_v77 : Ref sig .tc := ⟨.hbm, 117, rfl⟩
abbrev main_call0_v78 : Ref sig .tc := ⟨.hbm, 118, rfl⟩
abbrev main_call0_c_22 : Ref sig .tc := ⟨.hbm, 119, rfl⟩
abbrev main_call0_v79 : Ref sig .tc := ⟨.hbm, 120, rfl⟩
abbrev main_call0_v80 : Ref sig .tc := ⟨.hbm, 121, rfl⟩
abbrev main_call0_v81 : Ref sig .tc := ⟨.hbm, 122, rfl⟩
abbrev main_call0_v82 : Ref sig .tc := ⟨.hbm, 123, rfl⟩
abbrev main_call0_v83 : Ref sig .tc := ⟨.hbm, 124, rfl⟩
abbrev main_call0_c_23 : Ref sig .tc := ⟨.hbm, 125, rfl⟩
abbrev main_call0_v84 : Ref sig .tc := ⟨.hbm, 126, rfl⟩
abbrev main_call0_v85 : Ref sig .tc := ⟨.hbm, 127, rfl⟩
abbrev main_call0_c_24 : Ref sig .tc := ⟨.hbm, 128, rfl⟩
abbrev main_call0_v86 : Ref sig .tc := ⟨.hbm, 129, rfl⟩
abbrev main_call0_v87 : Ref sig .tc := ⟨.hbm, 130, rfl⟩
abbrev main_call0_v88 : Ref sig .tc := ⟨.hbm, 131, rfl⟩
abbrev main_call0_v89 : Ref sig .tc := ⟨.hbm, 132, rfl⟩
abbrev main_call0_v90 : Ref sig .tc := ⟨.hbm, 133, rfl⟩
abbrev main_call0_v91 : Ref sig .tc := ⟨.hbm, 134, rfl⟩
abbrev main_call0_cst_25 : Ref sig .tc := ⟨.hbm, 135, rfl⟩
abbrev main_call0_v92 : Ref sig .tc := ⟨.hbm, 136, rfl⟩
abbrev main_call0_v93 : Ref sig .tc := ⟨.hbm, 137, rfl⟩
abbrev main_call0_c_26 : Ref sig .tc := ⟨.hbm, 138, rfl⟩
abbrev main_call0_v94 : Ref sig .tc := ⟨.hbm, 139, rfl⟩
abbrev main_call0_v95 : Ref sig .tc := ⟨.hbm, 140, rfl⟩
abbrev main_call0_c_27 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_v99 : Ref sig .tc := ⟨.hbm, 145, rfl⟩
abbrev main_call0_v100 : Ref sig .tc := ⟨.hbm, 146, rfl⟩
abbrev main_call0_v101 : Ref sig .tc := ⟨.hbm, 147, rfl⟩
abbrev main_call0_v102 : Ref sig .tc := ⟨.hbm, 148, rfl⟩
abbrev main_call0_v103 : Ref sig .tc := ⟨.hbm, 149, rfl⟩
abbrev main_call0_cst_28 : Ref sig .tc := ⟨.hbm, 150, rfl⟩
abbrev main_call0_v104 : Ref sig .tc := ⟨.hbm, 151, rfl⟩
abbrev main_call0_v105 : Ref sig .tc := ⟨.hbm, 152, rfl⟩
abbrev main_call0_v106 : Ref sig .tc := ⟨.hbm, 153, rfl⟩
abbrev main_call0_cst_29 : Ref sig .tc := ⟨.hbm, 154, rfl⟩
abbrev main_call0_v107 : Ref sig .tc := ⟨.hbm, 155, rfl⟩
abbrev main_call0_v108 : Ref sig .tc := ⟨.hbm, 156, rfl⟩
abbrev main_call0_v109 : Ref sig .tc := ⟨.hbm, 157, rfl⟩
abbrev main_call0_c_30 : Ref sig .tc := ⟨.hbm, 158, rfl⟩
abbrev main_call0_v110 : Ref sig .tc := ⟨.hbm, 159, rfl⟩
abbrev main_call0_v111 : Ref sig .tc := ⟨.hbm, 160, rfl⟩
abbrev main_call0_c_31 : Ref sig .tc := ⟨.hbm, 161, rfl⟩
abbrev main_call0_v112 : Ref sig .tc := ⟨.hbm, 162, rfl⟩
abbrev main_call0_v113 : Ref sig .tc := ⟨.hbm, 163, rfl⟩
abbrev main_call0_v114 : Ref sig .tc := ⟨.hbm, 164, rfl⟩
abbrev main_call0_v115 : Ref sig .tc := ⟨.hbm, 165, rfl⟩
abbrev main_call0_v116 : Ref sig .tc := ⟨.hbm, 166, rfl⟩
abbrev main_call0_v117 : Ref sig .tc := ⟨.hbm, 167, rfl⟩
abbrev main_call0_v118 : Ref sig .tc := ⟨.hbm, 168, rfl⟩
abbrev main_call0_v119 : Ref sig .tc := ⟨.hbm, 169, rfl⟩
abbrev main_call0_cst_32 : Ref sig .tc := ⟨.hbm, 170, rfl⟩
abbrev main_call0_v120 : Ref sig .tc := ⟨.hbm, 171, rfl⟩
abbrev main_call0_v121 : Ref sig .tc := ⟨.hbm, 172, rfl⟩
abbrev main_call0_v122 : Ref sig .tc := ⟨.hbm, 173, rfl⟩
abbrev main_call0_cst_33 : Ref sig .tc := ⟨.hbm, 174, rfl⟩
abbrev main_call0_v123 : Ref sig .tc := ⟨.hbm, 175, rfl⟩
abbrev main_call0_v124 : Ref sig .tc := ⟨.hbm, 176, rfl⟩
abbrev main_call0_v125 : Ref sig .tc := ⟨.hbm, 177, rfl⟩
abbrev main_call0_v126 : Ref sig .tc := ⟨.hbm, 178, rfl⟩
abbrev main_call0_v127 : Ref sig .tc := ⟨.hbm, 179, rfl⟩
abbrev main_call0_v128 : Ref sig .tc := ⟨.hbm, 180, rfl⟩
abbrev main_call0_v129 : Ref sig .tc := ⟨.hbm, 181, rfl⟩
abbrev main_call0_cst_34 : Ref sig .tc := ⟨.hbm, 182, rfl⟩
abbrev main_call0_v130 : Ref sig .tc := ⟨.hbm, 183, rfl⟩
abbrev main_call0_cst_35 : Ref sig .tc := ⟨.hbm, 184, rfl⟩
abbrev main_call0_v131 : Ref sig .tc := ⟨.hbm, 185, rfl⟩
abbrev main_call0_v132 : Ref sig .tc := ⟨.hbm, 186, rfl⟩
abbrev main_call0_v133 : Ref sig .tc := ⟨.hbm, 187, rfl⟩
abbrev main_call0_cst_36 : Ref sig .tc := ⟨.hbm, 188, rfl⟩
abbrev main_call0_v134 : Ref sig .tc := ⟨.hbm, 189, rfl⟩
abbrev main_call0_v135 : Ref sig .tc := ⟨.hbm, 190, rfl⟩
abbrev main_call0_cst_37 : Ref sig .tc := ⟨.hbm, 191, rfl⟩
abbrev main_call0_v136 : Ref sig .tc := ⟨.hbm, 192, rfl⟩
abbrev main_call0_v137 : Ref sig .tc := ⟨.hbm, 193, rfl⟩
abbrev main_call0_v138 : Ref sig .tc := ⟨.hbm, 194, rfl⟩
abbrev main_call0_cst_38 : Ref sig .tc := ⟨.hbm, 195, rfl⟩
abbrev main_call0_call2_v0 : Ref sig .tc := ⟨.hbm, 196, rfl⟩
abbrev main_call0_call2_v1 : Ref sig .tc := ⟨.hbm, 197, rfl⟩
abbrev main_call0_v139 : Ref sig .tc := ⟨.hbm, 198, rfl⟩
abbrev main_call0_c_39 : Ref sig .tc := ⟨.hbm, 199, rfl⟩
abbrev main_call0_v140 : Ref sig .tc := ⟨.hbm, 200, rfl⟩
abbrev main_call0_v141 : Ref sig .tc := ⟨.hbm, 201, rfl⟩
abbrev main_call0_c_40 : Ref sig .tc := ⟨.hbm, 202, rfl⟩
abbrev main_call0_v142 : Ref sig .tc := ⟨.hbm, 203, rfl⟩
abbrev main_call0_v143 : Ref sig .tc := ⟨.hbm, 204, rfl⟩
abbrev main_call0_v144 : Ref sig .tc := ⟨.hbm, 205, rfl⟩
abbrev main_call0_v145 : Ref sig .tc := ⟨.hbm, 206, rfl⟩
abbrev main_call0_v146 : Ref sig .tc := ⟨.hbm, 207, rfl⟩
abbrev main_call0_c_41 : Ref sig .tc := ⟨.hbm, 208, rfl⟩
abbrev main_call0_v147 : Ref sig .tc := ⟨.hbm, 209, rfl⟩
abbrev main_call0_v148 : Ref sig .tc := ⟨.hbm, 210, rfl⟩
abbrev main_call0_c_42 : Ref sig .tc := ⟨.hbm, 211, rfl⟩
abbrev main_call0_v149 : Ref sig .tc := ⟨.hbm, 212, rfl⟩
abbrev main_call0_v150 : Ref sig .tc := ⟨.hbm, 213, rfl⟩
abbrev main_call0_v151 : Ref sig .tc := ⟨.hbm, 214, rfl⟩
abbrev main_call0_v152 : Ref sig .tc := ⟨.hbm, 215, rfl⟩
abbrev main_call0_v153 : Ref sig .tc := ⟨.hbm, 216, rfl⟩
abbrev main_call0_v154 : Ref sig .tc := ⟨.hbm, 217, rfl⟩
abbrev main_call0_cst_43 : Ref sig .tc := ⟨.hbm, 218, rfl⟩
abbrev main_call0_v155 : Ref sig .tc := ⟨.hbm, 219, rfl⟩
abbrev main_call0_v156 : Ref sig .tc := ⟨.hbm, 220, rfl⟩
abbrev main_call0_c_44 : Ref sig .tc := ⟨.hbm, 221, rfl⟩
abbrev main_call0_v157 : Ref sig .tc := ⟨.hbm, 222, rfl⟩
abbrev main_call0_v158 : Ref sig .tc := ⟨.hbm, 223, rfl⟩
abbrev main_call0_c_45 : Ref sig .tc := ⟨.hbm, 224, rfl⟩
abbrev main_call0_v159 : Ref sig .tc := ⟨.hbm, 225, rfl⟩
abbrev main_call0_v160 : Ref sig .tc := ⟨.hbm, 226, rfl⟩
abbrev main_call0_v161 : Ref sig .tc := ⟨.hbm, 227, rfl⟩
abbrev main_call0_v162 : Ref sig .tc := ⟨.hbm, 228, rfl⟩
abbrev main_call0_v163 : Ref sig .tc := ⟨.hbm, 229, rfl⟩
abbrev main_call0_v164 : Ref sig .tc := ⟨.hbm, 230, rfl⟩
abbrev main_call0_v165 : Ref sig .tc := ⟨.hbm, 231, rfl⟩
abbrev main_call0_v166 : Ref sig .tc := ⟨.hbm, 232, rfl⟩
abbrev main_call0_cst_46 : Ref sig .tc := ⟨.hbm, 233, rfl⟩
abbrev main_call0_v167 : Ref sig .tc := ⟨.hbm, 234, rfl⟩
abbrev main_call0_v168 : Ref sig .tc := ⟨.hbm, 235, rfl⟩
abbrev main_call0_v169 : Ref sig .tc := ⟨.hbm, 236, rfl⟩
abbrev main_call0_cst_47 : Ref sig .tc := ⟨.hbm, 237, rfl⟩
abbrev main_call0_v170 : Ref sig .tc := ⟨.hbm, 238, rfl⟩
abbrev main_call0_v171 : Ref sig .tc := ⟨.hbm, 239, rfl⟩
abbrev main_call0_v172 : Ref sig .tc := ⟨.hbm, 240, rfl⟩
abbrev main_call0_c_48 : Ref sig .tc := ⟨.hbm, 241, rfl⟩
abbrev main_call0_v173 : Ref sig .tc := ⟨.hbm, 242, rfl⟩
abbrev main_call0_v174 : Ref sig .tc := ⟨.hbm, 243, rfl⟩
abbrev main_call0_c_49 : Ref sig .tc := ⟨.hbm, 244, rfl⟩
abbrev main_call0_v175 : Ref sig .tc := ⟨.hbm, 245, rfl⟩
abbrev main_call0_v176 : Ref sig .tc := ⟨.hbm, 246, rfl⟩
abbrev main_call0_v177 : Ref sig .tc := ⟨.hbm, 247, rfl⟩
abbrev main_call0_v178 : Ref sig .tc := ⟨.hbm, 248, rfl⟩
abbrev main_call0_v179 : Ref sig .tc := ⟨.hbm, 249, rfl⟩
abbrev main_call0_v180 : Ref sig .tc := ⟨.hbm, 250, rfl⟩
abbrev main_call0_v181 : Ref sig .tc := ⟨.hbm, 251, rfl⟩
abbrev main_call0_v182 : Ref sig .tc := ⟨.hbm, 252, rfl⟩
abbrev main_call0_cst_50 : Ref sig .tc := ⟨.hbm, 253, rfl⟩
abbrev main_call0_v183 : Ref sig .tc := ⟨.hbm, 254, rfl⟩
abbrev main_call0_v184 : Ref sig .tc := ⟨.hbm, 255, rfl⟩
abbrev main_call0_v185 : Ref sig .tc := ⟨.hbm, 256, rfl⟩
abbrev main_call0_cst_51 : Ref sig .tc := ⟨.hbm, 257, rfl⟩
abbrev main_call0_v186 : Ref sig .tc := ⟨.hbm, 258, rfl⟩
abbrev main_call0_v187 : Ref sig .tc := ⟨.hbm, 259, rfl⟩
abbrev main_call0_v188 : Ref sig .tc := ⟨.hbm, 260, rfl⟩
abbrev main_call0_v189 : Ref sig .tc := ⟨.hbm, 261, rfl⟩
abbrev main_call0_v190 : Ref sig .tc := ⟨.hbm, 262, rfl⟩
abbrev main_call0_c_52 : Ref sig .tc := ⟨.hbm, 263, rfl⟩
abbrev main_call0_v191 : Ref sig .tc := ⟨.hbm, 264, rfl⟩
abbrev main_call0_v192 : Ref sig .tc := ⟨.hbm, 265, rfl⟩
abbrev main_call0_c_53 : Ref sig .tc := ⟨.hbm, 266, rfl⟩
abbrev main_call0_v193 : Ref sig .tc := ⟨.hbm, 267, rfl⟩
abbrev main_call0_v194 : Ref sig .tc := ⟨.hbm, 268, rfl⟩
abbrev main_call0_v195 : Ref sig .tc := ⟨.hbm, 269, rfl⟩
abbrev main_call0_v196 : Ref sig .tc := ⟨.hbm, 270, rfl⟩
abbrev main_call0_v197 : Ref sig .tc := ⟨.hbm, 271, rfl⟩
abbrev main_call0_v198 : Ref sig .tc := ⟨.hbm, 272, rfl⟩
abbrev main_call0_v199 : Ref sig .tc := ⟨.hbm, 273, rfl⟩
abbrev main_call0_c_54 : Ref sig .tc := ⟨.hbm, 274, rfl⟩
abbrev main_call0_v200 : Ref sig .tc := ⟨.hbm, 275, rfl⟩
abbrev main_call0_v201 : Ref sig .tc := ⟨.hbm, 276, rfl⟩
abbrev main_call0_c_55 : Ref sig .tc := ⟨.hbm, 277, rfl⟩
abbrev main_call0_v202 : Ref sig .tc := ⟨.hbm, 278, rfl⟩
abbrev main_call0_v203 : Ref sig .tc := ⟨.hbm, 279, rfl⟩
abbrev main_call0_v204 : Ref sig .tc := ⟨.hbm, 280, rfl⟩
abbrev main_call0_v205 : Ref sig .tc := ⟨.hbm, 281, rfl⟩
abbrev main_call0_v206 : Ref sig .tc := ⟨.hbm, 282, rfl⟩
abbrev main_call0_v207 : Ref sig .tc := ⟨.hbm, 283, rfl⟩
abbrev main_call0_v208 : Ref sig .tc := ⟨.hbm, 284, rfl⟩
abbrev main_call0_c_56 : Ref sig .tc := ⟨.hbm, 285, rfl⟩
abbrev main_call0_v209 : Ref sig .tc := ⟨.hbm, 286, rfl⟩
abbrev main_call0_v210 : Ref sig .tc := ⟨.hbm, 287, rfl⟩
abbrev main_call0_c_57 : Ref sig .tc := ⟨.hbm, 288, rfl⟩
abbrev main_call0_v211 : Ref sig .tc := ⟨.hbm, 289, rfl⟩
abbrev main_call0_v212 : Ref sig .tc := ⟨.hbm, 290, rfl⟩
abbrev main_call0_v213 : Ref sig .tc := ⟨.hbm, 291, rfl⟩
abbrev main_call0_v214 : Ref sig .tc := ⟨.hbm, 292, rfl⟩
abbrev main_call0_v215 : Ref sig .tc := ⟨.hbm, 293, rfl⟩
abbrev main_call0_v216 : Ref sig .tc := ⟨.hbm, 294, rfl⟩
abbrev main_call0_v217 : Ref sig .tc := ⟨.hbm, 295, rfl⟩
abbrev main_call0_c_58 : Ref sig .tc := ⟨.hbm, 296, rfl⟩
abbrev main_call0_v218 : Ref sig .tc := ⟨.hbm, 297, rfl⟩
abbrev main_call0_v219 : Ref sig .tc := ⟨.hbm, 298, rfl⟩
abbrev main_call0_c_59 : Ref sig .tc := ⟨.hbm, 299, rfl⟩
abbrev main_call0_v220 : Ref sig .tc := ⟨.hbm, 300, rfl⟩
abbrev main_call0_v221 : Ref sig .tc := ⟨.hbm, 301, rfl⟩
abbrev main_call0_v222 : Ref sig .tc := ⟨.hbm, 302, rfl⟩
abbrev main_call0_v223 : Ref sig .tc := ⟨.hbm, 303, rfl⟩
abbrev main_call0_v224 : Ref sig .tc := ⟨.hbm, 304, rfl⟩
abbrev main_call0_v225 : Ref sig .tc := ⟨.hbm, 305, rfl⟩
abbrev main_call0_v226 : Ref sig .tc := ⟨.hbm, 306, rfl⟩
abbrev main_call0_c_60 : Ref sig .tc := ⟨.hbm, 307, rfl⟩
abbrev main_call0_v227 : Ref sig .tc := ⟨.hbm, 308, rfl⟩
abbrev main_call0_v228 : Ref sig .tc := ⟨.hbm, 309, rfl⟩
abbrev main_call0_c_61 : Ref sig .tc := ⟨.hbm, 310, rfl⟩
abbrev main_call0_v229 : Ref sig .tc := ⟨.hbm, 311, rfl⟩
abbrev main_call0_v230 : Ref sig .tc := ⟨.hbm, 312, rfl⟩
abbrev main_call0_v231 : Ref sig .tc := ⟨.hbm, 313, rfl⟩
abbrev main_call0_v232 : Ref sig .tc := ⟨.hbm, 314, rfl⟩
abbrev main_call0_v233 : Ref sig .tc := ⟨.hbm, 315, rfl⟩
abbrev main_call0_v234 : Ref sig .tc := ⟨.hbm, 316, rfl⟩
abbrev main_call0_v235 : Ref sig .tc := ⟨.hbm, 317, rfl⟩
abbrev main_call0_c_62 : Ref sig .tc := ⟨.hbm, 318, rfl⟩
abbrev main_call0_v236 : Ref sig .tc := ⟨.hbm, 319, rfl⟩
abbrev main_call0_v237 : Ref sig .tc := ⟨.hbm, 320, rfl⟩
abbrev main_call0_c_63 : Ref sig .tc := ⟨.hbm, 321, rfl⟩
abbrev main_call0_v238 : Ref sig .tc := ⟨.hbm, 322, rfl⟩
abbrev main_call0_v239 : Ref sig .tc := ⟨.hbm, 323, rfl⟩
abbrev main_call0_v240 : Ref sig .tc := ⟨.hbm, 324, rfl⟩
abbrev main_call0_v241 : Ref sig .tc := ⟨.hbm, 325, rfl⟩
abbrev main_call0_v242 : Ref sig .tc := ⟨.hbm, 326, rfl⟩
abbrev main_call0_c_64 : Ref sig .tc := ⟨.hbm, 327, rfl⟩
abbrev main_call0_call3_v0 : Ref sig .tc := ⟨.hbm, 328, rfl⟩
abbrev main_call0_v243 : Ref sig .tc := ⟨.hbm, 329, rfl⟩
abbrev main_call0_c_65 : Ref sig .tc := ⟨.hbm, 330, rfl⟩
abbrev main_call0_call4_v0 : Ref sig .tc := ⟨.hbm, 331, rfl⟩
abbrev main_call0_v244 : Ref sig .tc := ⟨.hbm, 332, rfl⟩
abbrev main_call0_c_66 : Ref sig .tc := ⟨.hbm, 333, rfl⟩
abbrev main_call0_call5_v0 : Ref sig .tc := ⟨.hbm, 334, rfl⟩
abbrev main_call0_v245 : Ref sig .tc := ⟨.hbm, 335, rfl⟩
abbrev main_call0_c_67 : Ref sig .tc := ⟨.hbm, 336, rfl⟩
abbrev main_call0_call6_v0 : Ref sig .tc := ⟨.hbm, 337, rfl⟩
abbrev main_call0_v246 : Ref sig .tc := ⟨.hbm, 338, rfl⟩
abbrev main_call0_c_68 : Ref sig .tc := ⟨.hbm, 339, rfl⟩
abbrev main_call0_call7_v0 : Ref sig .tc := ⟨.hbm, 340, rfl⟩
abbrev main_call0_v247 : Ref sig .tc := ⟨.hbm, 341, rfl⟩
abbrev main_call0_c_69 : Ref sig .tc := ⟨.hbm, 342, rfl⟩
abbrev main_call0_call8_v0 : Ref sig .tc := ⟨.hbm, 343, rfl⟩
abbrev main_call0_v248 : Ref sig .tc := ⟨.hbm, 344, rfl⟩
abbrev main_call0_c_70 : Ref sig .tc := ⟨.hbm, 345, rfl⟩
abbrev main_call0_call9_v0 : Ref sig .tc := ⟨.hbm, 346, rfl⟩
abbrev main_call0_v249 : Ref sig .tc := ⟨.hbm, 347, rfl⟩
abbrev main_call0_c_71 : Ref sig .tc := ⟨.hbm, 348, rfl⟩
abbrev main_call0_call10_v0 : Ref sig .tc := ⟨.hbm, 349, rfl⟩
abbrev main_call0_v250 : Ref sig .tc := ⟨.hbm, 350, rfl⟩
abbrev main_call0_v251 : Ref sig .tc := ⟨.hbm, 351, rfl⟩
abbrev main_v0 : Ref sig .tc := ⟨.hbm, 352, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S110000 : S_.BroadcastsInDim S110000 (![] : Fin 0 → Fin S110000.rank)
  bcast_S500000_S500000x1_0 : S500000.BroadcastsInDim S500000x1 (![0] : Fin 1 → Fin S500000x1.rank)
  bcast_S_S110000x64 : S_.BroadcastsInDim S110000x64 (![] : Fin 0 → Fin S110000x64.rank)
  bcast_S500000x1_S500000x64_0_1 : S500000x1.BroadcastsInDim S500000x64 (![0, 1] : Fin 2 → Fin S500000x64.rank)
  bcast_S_S20000 : S_.BroadcastsInDim S20000 (![] : Fin 0 → Fin S20000.rank)
  bcast_S_S20000x64 : S_.BroadcastsInDim S20000x64 (![] : Fin 0 → Fin S20000x64.rank)
  bcast_S_S10000 : S_.BroadcastsInDim S10000 (![] : Fin 0 → Fin S10000.rank)
  bcast_S_S10000x64 : S_.BroadcastsInDim S10000x64 (![] : Fin 0 → Fin S10000x64.rank)
  pads_S500000x64_S503808x64_038080_000 : S500000x64.Pads (![0, 0] : Fin 2 → Nat) ![3808, 0] ![0, 0] S503808x64
  h_S_ : 0 < S_.numel
  pads_S500000x16_S503808x16_038080_000 : S500000x16.Pads (![0, 0] : Fin 2 → Nat) ![3808, 0] ![0, 0] S503808x16
  slices_S503808_S500000_0 : S503808.Slices ![0] S500000
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  scatter_S110000_S500000x1_S500000_n_0_0_1_wf : ScatterDims.WF S110000 S500000x1 S500000 [] [0] [0] 1
  gather_S110000_S500000x1_S500000_n_0_n_n_0_1_1_wf : GatherDims.WF S110000 S500000x1 S500000 [] [0] [] [0] [] 1 ![1]
  gather_S110000x64_S500000x1_S500000x64_1_0_n_n_0_1_164_wf : GatherDims.WF S110000x64 S500000x1 S500000x64 [1] [0] [] [0] [] 1 ![1, 64]
  scatter_S110000x64_S500000x1_S500000x64_1_0_0_1_wf : ScatterDims.WF S110000x64 S500000x1 S500000x64 [1] [0] [0] 1
  scatter_S20000_S500000x1_S500000_n_0_0_1_wf : ScatterDims.WF S20000 S500000x1 S500000 [] [0] [0] 1
  gather_S20000_S500000x1_S500000_n_0_n_n_0_1_1_wf : GatherDims.WF S20000 S500000x1 S500000 [] [0] [] [0] [] 1 ![1]
  gather_S20000x64_S500000x1_S500000x64_1_0_n_n_0_1_164_wf : GatherDims.WF S20000x64 S500000x1 S500000x64 [1] [0] [] [0] [] 1 ![1, 64]
  scatter_S20000x64_S500000x1_S500000x64_1_0_0_1_wf : ScatterDims.WF S20000x64 S500000x1 S500000x64 [1] [0] [0] 1
  scatter_S10000_S500000x1_S500000_n_0_0_1_wf : ScatterDims.WF S10000 S500000x1 S500000 [] [0] [0] 1
  gather_S10000_S500000x1_S500000_n_0_n_n_0_1_1_wf : GatherDims.WF S10000 S500000x1 S500000 [] [0] [] [0] [] 1 ![1]
  gather_S10000x64_S500000x1_S500000x64_1_0_n_n_0_1_164_wf : GatherDims.WF S10000x64 S500000x1 S500000x64 [1] [0] [] [0] [] 1 ![1, 64]
  scatter_S10000x64_S500000x1_S500000x64_1_0_0_1_wf : ScatterDims.WF S10000x64 S500000x1 S500000x64 [1] [0] [0] 1
  dot_S4096x16_S16x64_S4096x64_1_0_0_1_n_n_wf : DotDims.WF S4096x16 S16x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S503808x64.size a
  hwx0_0 : ∀ i : grid0.Coords, EltTy.bits .f32 = 32 ∨ (Rect.block (s := S503808x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S503808x64.size a
  hwx0_1 : ∀ i : grid0.Coords, EltTy.bits .f32 = 32 ∨ (Rect.block (s := S503808x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S503808x64.size a
  hwx0_2 : ∀ i : grid0.Coords, EltTy.bits .f32 = 32 ∨ (Rect.block (s := S503808x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S503808x64.size a
  hwx0_3 : ∀ i : grid0.Coords, EltTy.bits .f32 = 32 ∨ (Rect.block (s := S503808x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S503808x64.size a
  hwx0_4 : ∀ i : grid0.Coords, EltTy.bits .f32 = 32 ∨ (Rect.block (s := S503808x64) S4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S503808x64.size a
  hwx0_5 : ∀ i : grid0.Coords, EltTy.bits .f32 = 32 ∨ (Rect.block (s := S503808x64) S4096x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x16.size a ≤ S503808x16.size a
  hwx0_6 : ∀ i : grid0.Coords, EltTy.bits .f32 = 32 ∨ (Rect.block (s := S503808x16) S4096x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S503808x16.size a
  hwx0_7 : ∀ i : grid0.Coords, EltTy.bits .f32 = 32 ∨ (Rect.block (s := S503808x16) S4096x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64.size a ≤ S16x64.size a
  hwx0_8 : ∀ i : grid0.Coords, EltTy.bits .f32 = 32 ∨ (Rect.block (s := S16x64) S16x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x64.size a ≤ S16x64.size a
  hwx0_10 : ∀ i : grid0.Coords, EltTy.bits .f32 = 32 ∨ (Rect.block (s := S16x64) S16x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096.size a ≤ S503808.size a
  hwx0_12 : ∀ i : grid0.Coords, EltTy.bits .f32 = 32 ∨ (Rect.block (s := S503808) S4096.size (cc0_transform_12 i) (hinb0_12 i)).WholeWords (EltTy.packing .f32)

variable [Facts₀]

def scatter_S110000_S500000x1_S500000_n_0_0_1 : ScatterDims S110000 S500000x1 S500000 where
  updateWindowDims := []
  insertedWindowDims := [0]
  scatterDimsToOperandDims := [0]
  indexVectorDim := 1
  wf := scatter_S110000_S500000x1_S500000_n_0_0_1_wf
def gather_S110000_S500000x1_S500000_n_0_n_n_0_1_1 : GatherDims S110000 S500000x1 S500000 where
  offsetDims := []
  collapsedSliceDims := [0]
  operandBatchingDims := []
  startIndicesBatchingDims := []
  startIndexMap := [0]
  indexVectorDim := 1
  sliceSizes := ![1]
  wf := gather_S110000_S500000x1_S500000_n_0_n_n_0_1_1_wf
def gather_S110000x64_S500000x1_S500000x64_1_0_n_n_0_1_164 : GatherDims S110000x64 S500000x1 S500000x64 where
  offsetDims := [1]
  collapsedSliceDims := [0]
  operandBatchingDims := []
  startIndicesBatchingDims := []
  startIndexMap := [0]
  indexVectorDim := 1
  sliceSizes := ![1, 64]
  wf := gather_S110000x64_S500000x1_S500000x64_1_0_n_n_0_1_164_wf
def scatter_S110000x64_S500000x1_S500000x64_1_0_0_1 : ScatterDims S110000x64 S500000x1 S500000x64 where
  updateWindowDims := [1]
  insertedWindowDims := [0]
  scatterDimsToOperandDims := [0]
  indexVectorDim := 1
  wf := scatter_S110000x64_S500000x1_S500000x64_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000_S500000x1_S500000_n_0_n_n_0_1_1 : GatherDims S20000 S500000x1 S500000 where
  offsetDims := []
  collapsedSliceDims := [0]
  operandBatchingDims := []
  startIndicesBatchingDims := []
  startIndexMap := [0]
  indexVectorDim := 1
  sliceSizes := ![1]
  wf := gather_S20000_S500000x1_S500000_n_0_n_n_0_1_1_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

abbrev win0_0 : Pipeline.Window sig grid0 :=
  Pipeline.Window.ofSpec (Memref.whole main_call0_v243) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v244) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v245) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v246) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v247) S4096x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v248) S4096x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v249) S4096x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v250) S4096x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v251) S4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x500000 : Shape := ⟨2, ![2, 500000]⟩
abbrev S500000x16 : Shape := ⟨2, ![500000, 16]⟩
abbrev S110000x64 : Shape := ⟨2, ![110000, 64]⟩
abbrev S20000x64 : Shape := ⟨2, ![20000, 64]⟩
abbrev S10000x64 : Shape := ⟨2, ![10000, 64]⟩
abbrev S16x64 : Shape := ⟨2, ![16, 64]⟩
abbrev S64 : Shape := ⟨1, ![64]⟩
abbrev S500000x64 : Shape := ⟨2, ![500000, 64]⟩
abbrev S1x64 : Shape := ⟨2, ![1, 64]⟩
abbrev S_ : Shape := ⟨0, ![]⟩
abbrev S1x500000 : Shape := ⟨2, ![1, 500000]⟩
abbrev S500000 : Shape := ⟨1, ![500000]⟩
abbrev S110000 : Shape := ⟨1, ![110000]⟩
abbrev S500000x1 : Shape := ⟨2, ![500000, 1]⟩
abbrev S20000 : Shape := ⟨1, ![20000]⟩
abbrev S10000 : Shape := ⟨1, ![10000]⟩

abbrev nBuf : Space → Nat
  | .hbm => 470
  | .vmem => 0
  | .smem => 0
  | _ => 0

abbrev hbmTy0_0 (i : Nat) : BufTy := match i % 128 with
  | 0 => ⟨S2x500000, .i32⟩
  | 1 => ⟨S2x500000, .i32⟩
  | 2 => ⟨S2x500000, .i32⟩
  | 3 => ⟨S500000x16, .f32⟩
  | 4 => ⟨S500000x16, .f32⟩
  | 5 => ⟨S110000x64, .f32⟩
  | 6 => ⟨S20000x64, .f32⟩
  | 7 => ⟨S10000x64, .f32⟩
  | 8 => ⟨S16x64, .f32⟩
  | 9 => ⟨S64, .f32⟩
  | 10 => ⟨S16x64, .f32⟩
  | 11 => ⟨S64, .f32⟩
  | 12 => ⟨S500000x64, .f32⟩
  | 13 => ⟨S1x64, .f32⟩
  | 14 => ⟨S500000x64, .f32⟩
  | 15 => ⟨S500000x64, .f32⟩
  | 16 => ⟨S500000x64, .f32⟩
  | 17 => ⟨S1x64, .f32⟩
  | 18 => ⟨S500000x64, .f32⟩
  | 19 => ⟨S500000x64, .f32⟩
  | 20 => ⟨S_, .f32⟩
  | 21 => ⟨S110000x64, .f32⟩
  | 22 => ⟨S110000x64, .f32⟩
  | 23 => ⟨S1x500000, .i32⟩
  | 24 => ⟨S500000, .i32⟩
  | 25 => ⟨S1x500000, .i32⟩
  | 26 => ⟨S500000, .i32⟩
  | 27 => ⟨S_, .f32⟩
  | 28 => ⟨S500000, .f32⟩
  | 29 => ⟨S_, .f32⟩
  | 30 => ⟨S110000, .f32⟩
  | 31 => ⟨S500000x1, .i32⟩
  | 32 => ⟨S110000, .f32⟩
  | 33 => ⟨S_, .f32⟩
  | 34 => ⟨S110000, .f32⟩
  | 35 => ⟨S110000, .i1⟩
  | 36 => ⟨S_, .f32⟩
  | 37 => ⟨S110000, .f32⟩
  | 38 => ⟨S110000, .f32⟩
  | 39 => ⟨S110000, .f32⟩
  | 40 => ⟨S_, .f32⟩
  | 41 => ⟨S_, .f32⟩
  | 42 => ⟨S110000, .f32⟩
  | 43 => ⟨S110000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000, .f32⟩
  | 62 => ⟨S500000, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x64, .f32⟩
  | 72 => ⟨S500000x1, .f32⟩
  | 73 => ⟨S500000x64, .f32⟩
  | 74 => ⟨S500000x64, .f32⟩
  | 75 => ⟨S_, .f32⟩
  | 76 => ⟨S110000x64, .f32⟩
  | 77 => ⟨S500000x1, .i32⟩
  | 78 => ⟨S110000x64, .f32⟩
  | 79 => ⟨S_, .f32⟩
  | 80 => ⟨S110000x64, .f32⟩
  | 81 => ⟨S110000x64, .f32⟩
  | 82 => ⟨S110000x64, .f32⟩
  | 83 => ⟨S1x500000, .i32⟩
  | 84 => ⟨S500000, .i32⟩
  | 85 => ⟨S1x500000, .i32⟩
  | 86 => ⟨S500000, .i32⟩
  | 87 => ⟨S_, .f32⟩
  | 88 => ⟨S500000, .f32⟩
  | 89 => ⟨S_, .f32⟩
  | 90 => ⟨S110000, .f32⟩
  | 91 => ⟨S500000x1, .i32⟩
  | 92 => ⟨S110000, .f32⟩
  | 93 => ⟨S_, .f32⟩
  | 94 => ⟨S110000, .f32⟩
  | 95 => ⟨S110000, .i1⟩
  | 96 => ⟨S_, .f32⟩
  | 97 => ⟨S110000, .f32⟩
  | 98 => ⟨S110000, .f32⟩
  | 99 => ⟨S110000, .f32⟩
  | 100 => ⟨S_, .f32⟩
  | 101 => ⟨S_, .f32⟩
  | 102 => ⟨S110000, .f32⟩
  | 103 => ⟨S110000, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000, .f32⟩
  | 122 => ⟨S500000, .f32⟩
  | 123 => ⟨S_, .i32⟩
  | 124 => ⟨S500000, .i32⟩
  | 125 => ⟨S500000, .i1⟩
  | 126 => ⟨S_, .i32⟩
  | 127 => ⟨S500000, .i32⟩
  | _ => ⟨S2x500000, .i32⟩

abbrev hbmTy0_1 (i : Nat) : BufTy := match i % 128 with
  | 0 => ⟨S500000, .i32⟩
  | 1 => ⟨S500000, .i32⟩
  | 2 => ⟨S500000x1, .i32⟩
  | 3 => ⟨S500000x64, .f32⟩
  | 4 => ⟨S500000x1, .f32⟩
  | 5 => ⟨S500000x64, .f32⟩
  | 6 => ⟨S500000x64, .f32⟩
  | 7 => ⟨S_, .f32⟩
  | 8 => ⟨S110000x64, .f32⟩
  | 9 => ⟨S500000x1, .i32⟩
  | 10 => ⟨S110000x64, .f32⟩
  | 11 => ⟨S_, .f32⟩
  | 12 => ⟨S110000x64, .f32⟩
  | 13 => ⟨S110000x64, .f32⟩
  | 14 => ⟨S110000x64, .f32⟩
  | 15 => ⟨S_, .f32⟩
  | 16 => ⟨S20000x64, .f32⟩
  | 17 => ⟨S20000x64, .f32⟩
  | 18 => ⟨S1x500000, .i32⟩
  | 19 => ⟨S500000, .i32⟩
  | 20 => ⟨S1x500000, .i32⟩
  | 21 => ⟨S500000, .i32⟩
  | 22 => ⟨S_, .f32⟩
  | 23 => ⟨S500000, .f32⟩
  | 24 => ⟨S_, .f32⟩
  | 25 => ⟨S20000, .f32⟩
  | 26 => ⟨S500000x1, .i32⟩
  | 27 => ⟨S20000, .f32⟩
  | 28 => ⟨S_, .f32⟩
  | 29 => ⟨S20000, .f32⟩
  | 30 => ⟨S20000, .i1⟩
  | 31 => ⟨S_, .f32⟩
  | 32 => ⟨S20000, .f32⟩
  | 33 => ⟨S20000, .f32⟩
  | 34 => ⟨S20000, .f32⟩
  | 35 => ⟨S_, .f32⟩
  | 36 => ⟨S_, .f32⟩
  | 37 => ⟨S20000, .f32⟩
  | 38 => ⟨S20000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000, .f32⟩
  | 57 => ⟨S500000, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x64, .f32⟩
  | 67 => ⟨S500000x1, .f32⟩
  | 68 => ⟨S500000x64, .f32⟩
  | 69 => ⟨S500000x64, .f32⟩
  | 70 => ⟨S_, .f32⟩
  | 71 => ⟨S20000x64, .f32⟩
  | 72 => ⟨S500000x1, .i32⟩
  | 73 => ⟨S20000x64, .f32⟩
  | 74 => ⟨S_, .f32⟩
  | 75 => ⟨S20000x64, .f32⟩
  | 76 => ⟨S20000x64, .f32⟩
  | 77 => ⟨S20000x64, .f32⟩
  | 78 => ⟨S1x500000, .i32⟩
  | 79 => ⟨S500000, .i32⟩
  | 80 => ⟨S1x500000, .i32⟩
  | 81 => ⟨S500000, .i32⟩
  | 82 => ⟨S_, .f32⟩
  | 83 => ⟨S500000, .f32⟩
  | 84 => ⟨S_, .f32⟩
  | 85 => ⟨S20000, .f32⟩
  | 86 => ⟨S500000x1, .i32⟩
  | 87 => ⟨S20000, .f32⟩
  | 88 => ⟨S_, .f32⟩
  | 89 => ⟨S20000, .f32⟩
  | 90 => ⟨S20000, .i1⟩
  | 91 => ⟨S_, .f32⟩
  | 92 => ⟨S20000, .f32⟩
  | 93 => ⟨S20000, .f32⟩
  | 94 => ⟨S20000, .f32⟩
  | 95 => ⟨S_, .f32⟩
  | 96 => ⟨S_, .f32⟩
  | 97 => ⟨S20000, .f32⟩
  | 98 => ⟨S20000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000, .f32⟩
  | 117 => ⟨S500000, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x64, .f32⟩
  | 127 => ⟨S500000x1, .f32⟩
  | _ => ⟨S2x500000, .i32⟩

abbrev hbmTy0_2 (i : Nat) : BufTy := match i % 128 with
  | 0 => ⟨S500000x64, .f32⟩
  | 1 => ⟨S500000x64, .f32⟩
  | 2 => ⟨S_, .f32⟩
  | 3 => ⟨S20000x64, .f32⟩
  | 4 => ⟨S500000x1, .i32⟩
  | 5 => ⟨S20000x64, .f32⟩
  | 6 => ⟨S_, .f32⟩
  | 7 => ⟨S20000x64, .f32⟩
  | 8 => ⟨S20000x64, .f32⟩
  | 9 => ⟨S20000x64, .f32⟩
  | 10 => ⟨S_, .f32⟩
  | 11 => ⟨S10000x64, .f32⟩
  | 12 => ⟨S10000x64, .f32⟩
  | 13 => ⟨S1x500000, .i32⟩
  | 14 => ⟨S500000, .i32⟩
  | 15 => ⟨S1x500000, .i32⟩
  | 16 => ⟨S500000, .i32⟩
  | 17 => ⟨S_, .f32⟩
  | 18 => ⟨S500000, .f32⟩
  | 19 => ⟨S_, .f32⟩
  | 20 => ⟨S10000, .f32⟩
  | 21 => ⟨S500000x1, .i32⟩
  | 22 => ⟨S10000, .f32⟩
  | 23 => ⟨S_, .f32⟩
  | 24 => ⟨S10000, .f32⟩
  | 25 => ⟨S10000, .i1⟩
  | 26 => ⟨S_, .f32⟩
  | 27 => ⟨S10000, .f32⟩
  | 28 => ⟨S10000, .f32⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000, .f32⟩
  | 52 => ⟨S500000, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x64, .f32⟩
  | 62 => ⟨S500000x1, .f32⟩
  | 63 => ⟨S500000x64, .f32⟩
  | 64 => ⟨S500000x64, .f32⟩
  | 65 => ⟨S_, .f32⟩
  | 66 => ⟨S10000x64, .f32⟩
  | 67 => ⟨S500000x1, .i32⟩
  | 68 => ⟨S10000x64, .f32⟩
  | 69 => ⟨S_, .f32⟩
  | 70 => ⟨S10000x64, .f32⟩
  | 71 => ⟨S10000x64, .f32⟩
  | 72 => ⟨S10000x64, .f32⟩
  | 73 => ⟨S1x500000, .i32⟩
  | 74 => ⟨S500000, .i32⟩
  | 75 => ⟨S1x500000, .i32⟩
  | 76 => ⟨S500000, .i32⟩
  | 77 => ⟨S_, .f32⟩
  | 78 => ⟨S500000, .f32⟩
  | 79 => ⟨S_, .f32⟩
  | 80 => ⟨S10000, .f32⟩
  | 81 => ⟨S500000x1, .i32⟩
  | 82 => ⟨S10000, .f32⟩
  | 83 => ⟨S_, .f32⟩
  | 84 => ⟨S10000, .f32⟩
  | 85 => ⟨S10000, .i1⟩
  | 86 => ⟨S_, .f32⟩
  | 87 => ⟨S10000, .f32⟩
  | 88 => ⟨S10000, .f32⟩
  | 89 => ⟨S10000, .f32⟩
  | 90 => ⟨S_, .f32⟩
  | 91 => ⟨S_, .f32⟩
  | 92 => ⟨S10000, .f32⟩
  | 93 => ⟨S10000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000, .f32⟩
  | 112 => ⟨S500000, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x64, .f32⟩
  | 122 => ⟨S500000x1, .f32⟩
  | 123 => ⟨S500000x64, .f32⟩
  | 124 => ⟨S500000x64, .f32⟩
  | 125 => ⟨S_, .f32⟩
  | 126 => ⟨S10000x64, .f32⟩
  | 127 => ⟨S500000x1, .i32⟩
  | _ => ⟨S2x500000, .i32⟩

abbrev hbmTy0_3 (i : Nat) : BufTy := match i % 128 with
  | 0 => ⟨S10000x64, .f32⟩
  | 1 => ⟨S_, .f32⟩
  | 2 => ⟨S10000x64, .f32⟩
  | 3 => ⟨S10000x64, .f32⟩
  | 4 => ⟨S10000x64, .f32⟩
  | 5 => ⟨S1x500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x64, .f32⟩
  | 27 => ⟨S500000x64, .f32⟩
  | 28 => ⟨S1x500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x64, .f32⟩
  | 39 => ⟨S500000x64, .f32⟩
  | 40 => ⟨S_, .f32⟩
  | 41 => ⟨S500000x64, .f32⟩
  | 42 => ⟨S500000x64, .f32⟩
  | 43 => ⟨S500000x64, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x64, .f32⟩
  | 55 => ⟨S1x500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x64, .f32⟩
  | 66 => ⟨S500000x64, .f32⟩
  | 67 => ⟨S1x500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x64, .f32⟩
  | 78 => ⟨S500000x64, .f32⟩
  | 79 => ⟨S_, .f32⟩
  | 80 => ⟨S500000x64, .f32⟩
  | 81 => ⟨S500000x64, .f32⟩
  | 82 => ⟨S500000x64, .f32⟩
  | 83 => ⟨S500000x64, .f32⟩
  | 84 => ⟨S_, .f32⟩
  | 85 => ⟨S500000, .f32⟩
  | _ => ⟨S2x500000, .i32⟩

abbrev hbmTy (i : Nat) : BufTy := match i / 128 with
  | 0 => hbmTy0_0 i
  | 1 => hbmTy0_1 i
  | 2 => hbmTy0_2 i
  | 3 => hbmTy0_3 i
  | _ => ⟨S2x500000, .i32⟩

abbrev bufTy : (tb : Table) → Fin (tcTables nBuf tb) → BufTy
  | .hbm, ⟨i, _⟩ => hbmTy i
  | _, _ => ⟨S2x500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_call1_v0 : Ref sig .tc := ⟨.hbm, 101, rfl⟩
abbrev main_call1_v1 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_c_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_21 : Ref sig .tc := ⟨.hbm, 123, rfl⟩
abbrev main_v84 : Ref sig .tc := ⟨.hbm, 124, rfl⟩
abbrev main_v85 : Ref sig .tc := ⟨.hbm, 125, rfl⟩
abbrev main_c_22 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_24 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_26 : Ref sig .tc := ⟨.hbm, 150, rfl⟩
abbrev main_v106 : Ref sig .tc := ⟨.hbm, 151, rfl⟩
abbrev main_cst_27 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_28 : Ref sig .tc := ⟨.hbm, 156, rfl⟩
abbrev main_v110 : Ref sig .tc := ⟨.hbm, 157, rfl⟩
abbrev main_v111 : Ref sig .tc := ⟨.hbm, 158, rfl⟩
abbrev main_cst_29 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_30 : Ref sig .tc := ⟨.hbm, 163, rfl⟩
abbrev main_call2_v0 : Ref sig .tc := ⟨.hbm, 164, rfl⟩
abbrev main_call2_v1 : Ref sig .tc := ⟨.hbm, 165, rfl⟩
abbrev main_v115 : Ref sig .tc := ⟨.hbm, 166, rfl⟩
abbrev main_c_31 : Ref sig .tc := ⟨.hbm, 167, rfl⟩
abbrev main_v116 : Ref sig .tc := ⟨.hbm, 168, rfl⟩
abbrev main_v117 : Ref sig .tc := ⟨.hbm, 169, rfl⟩
abbrev main_c_32 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_33 : Ref sig .tc := ⟨.hbm, 176, rfl⟩
abbrev main_v123 : Ref sig .tc := ⟨.hbm, 177, rfl⟩
abbrev main_v124 : Ref sig .tc := ⟨.hbm, 178, rfl⟩
abbrev main_c_34 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_c_35 : Ref sig .tc := ⟨.hbm, 186, rfl⟩
abbrev main_v131 : Ref sig .tc := ⟨.hbm, 187, rfl⟩
abbrev main_v132 : Ref sig .tc := ⟨.hbm, 188, rfl⟩
abbrev main_c_36 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_37 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_38 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_39 : Ref sig .tc := ⟨.hbm, 210, rfl⟩
abbrev main_v151 : Ref sig .tc := ⟨.hbm, 211, rfl⟩
abbrev main_cst_40 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_41 : Ref sig .tc := ⟨.hbm, 216, rfl⟩
abbrev main_v155 : Ref sig .tc := ⟨.hbm, 217, rfl⟩
abbrev main_v156 : Ref sig .tc := ⟨.hbm, 218, rfl⟩
abbrev main_cst_42 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_43 : Ref sig .tc := ⟨.hbm, 223, rfl⟩
abbrev main_call3_v0 : Ref sig .tc := ⟨.hbm, 224, rfl⟩
abbrev main_call3_v1 : Ref sig .tc := ⟨.hbm, 225, rfl⟩
abbrev main_v160 : Ref sig .tc := ⟨.hbm, 226, rfl⟩
abbrev main_c_44 : Ref sig .tc := ⟨.hbm, 227, rfl⟩
abbrev main_v161 : Ref sig .tc := ⟨.hbm, 228, rfl⟩
abbrev main_v162 : Ref sig .tc := ⟨.hbm, 229, rfl⟩
abbrev main_c_45 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_46 : Ref sig .tc := ⟨.hbm, 236, rfl⟩
abbrev main_v168 : Ref sig .tc := ⟨.hbm, 237, rfl⟩
abbrev main_v169 : Ref sig .tc := ⟨.hbm, 238, rfl⟩
abbrev main_c_47 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_c_48 : Ref sig .tc := ⟨.hbm, 246, rfl⟩
abbrev main_v176 : Ref sig .tc := ⟨.hbm, 247, rfl⟩
abbrev main_v177 : Ref sig .tc := ⟨.hbm, 248, rfl⟩
abbrev main_c_49 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_cst_50 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_51 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_52 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_53 : Ref sig .tc := ⟨.hbm, 273, rfl⟩
abbrev main_v198 : Ref sig .tc := ⟨.hbm, 274, rfl⟩
abbrev main_cst_54 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_cst_55 : Ref sig .tc := ⟨.hbm, 279, rfl⟩
abbrev main_v202 : Ref sig .tc := ⟨.hbm, 280, rfl⟩
abbrev main_v203 : Ref sig .tc := ⟨.hbm, 281, rfl⟩
abbrev main_cst_56 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_cst_57 : Ref sig .tc := ⟨.hbm, 286, rfl⟩
abbrev main_call4_v0 : Ref sig .tc := ⟨.hbm, 287, rfl⟩
abbrev main_call4_v1 : Ref sig .tc := ⟨.hbm, 288, rfl⟩
abbrev main_v207 : Ref sig .tc := ⟨.hbm, 289, rfl⟩
abbrev main_c_58 : Ref sig .tc := ⟨.hbm, 290, rfl⟩
abbrev main_v208 : Ref sig .tc := ⟨.hbm, 291, rfl⟩
abbrev main_v209 : Ref sig .tc := ⟨.hbm, 292, rfl⟩
abbrev main_c_59 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_c_60 : Ref sig .tc := ⟨.hbm, 299, rfl⟩
abbrev main_v215 : Ref sig .tc := ⟨.hbm, 300, rfl⟩
abbrev main_v216 : Ref sig .tc := ⟨.hbm, 301, rfl⟩
abbrev main_c_61 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_c_62 : Ref sig .tc := ⟨.hbm, 309, rfl⟩
abbrev main_v223 : Ref sig .tc := ⟨.hbm, 310, rfl⟩
abbrev main_v224 : Ref sig .tc := ⟨.hbm, 311, rfl⟩
abbrev main_c_63 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_cst_64 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_cst_65 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_cst_66 : Ref sig .tc := ⟨.hbm, 333, rfl⟩
abbrev main_v243 : Ref sig .tc := ⟨.hbm, 334, rfl⟩
abbrev main_cst_67 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_68 : Ref sig .tc := ⟨.hbm, 339, rfl⟩
abbrev main_v247 : Ref sig .tc := ⟨.hbm, 340, rfl⟩
abbrev main_v248 : Ref sig .tc := ⟨.hbm, 341, rfl⟩
abbrev main_cst_69 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_cst_70 : Ref sig .tc := ⟨.hbm, 346, rfl⟩
abbrev main_call5_v0 : Ref sig .tc := ⟨.hbm, 347, rfl⟩
abbrev main_call5_v1 : Ref sig .tc := ⟨.hbm, 348, rfl⟩
abbrev main_v252 : Ref sig .tc := ⟨.hbm, 349, rfl⟩
abbrev main_c_71 : Ref sig .tc := ⟨.hbm, 350, rfl⟩
abbrev main_v253 : Ref sig .tc := ⟨.hbm, 351, rfl⟩
abbrev main_v254 : Ref sig .tc := ⟨.hbm, 352, rfl⟩
abbrev main_c_72 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_c_73 : Ref sig .tc := ⟨.hbm, 359, rfl⟩
abbrev main_v260 : Ref sig .tc := ⟨.hbm, 360, rfl⟩
abbrev main_v261 : Ref sig .tc := ⟨.hbm, 361, rfl⟩
abbrev main_c_74 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_c_75 : Ref sig .tc := ⟨.hbm, 369, rfl⟩
abbrev main_v268 : Ref sig .tc := ⟨.hbm, 370, rfl⟩
abbrev main_v269 : Ref sig .tc := ⟨.hbm, 371, rfl⟩
abbrev main_c_76 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_cst_77 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_cst_78 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_c_79 : Ref sig .tc := ⟨.hbm, 391, rfl⟩
abbrev main_v286 : Ref sig .tc := ⟨.hbm, 392, rfl⟩
abbrev main_v287 : Ref sig .tc := ⟨.hbm, 393, rfl⟩
abbrev main_c_80 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_v291 : Ref sig .tc := ⟨.hbm, 398, rfl⟩
abbrev main_v292 : Ref sig .tc := ⟨.hbm, 399, rfl⟩
abbrev main_v293 : Ref sig .tc := ⟨.hbm, 400, rfl⟩
abbrev main_v294 : Ref sig .tc := ⟨.hbm, 401, rfl⟩
abbrev main_c_81 : Ref sig .tc := ⟨.hbm, 402, rfl⟩
abbrev main_v295 : Ref sig .tc := ⟨.hbm, 403, rfl⟩
abbrev main_v296 : Ref sig .tc := ⟨.hbm, 404, rfl⟩
abbrev main_c_82 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_v304 : Ref sig .tc := ⟨.hbm, 413, rfl⟩
abbrev main_c_83 : Ref sig .tc := ⟨.hbm, 414, rfl⟩
abbrev main_v305 : Ref sig .tc := ⟨.hbm, 415, rfl⟩
abbrev main_v306 : Ref sig .tc := ⟨.hbm, 416, rfl⟩
abbrev main_c_84 : Ref sig .tc := ⟨.hbm, 417, rfl⟩
abbrev main_v307 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_cst_85 : Ref sig .tc := ⟨.hbm, 424, rfl⟩
abbrev main_v313 : Ref sig .tc := ⟨.hbm, 425, rfl⟩
abbrev main_v314 : Ref sig .tc := ⟨.hbm, 426, rfl⟩
abbrev main_v315 : Ref sig .tc := ⟨.hbm, 427, rfl⟩
abbrev main_v316 : Ref sig .tc := ⟨.hbm, 428, rfl⟩
abbrev main_v317 : Ref sig .tc := ⟨.hbm, 429, rfl⟩
abbrev main_c_86 : Ref sig .tc := ⟨.hbm, 430, rfl⟩
abbrev main_v318 : Ref sig .tc := ⟨.hbm, 431, rfl⟩
abbrev main_v319 : Ref sig .tc := ⟨.hbm, 432, rfl⟩
abbrev main_c_87 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_v326 : Ref sig .tc := ⟨.hbm, 440, rfl⟩
abbrev main_c_88 : Ref sig .tc := ⟨.hbm, 441, rfl⟩
abbrev main_v327 : Ref sig .tc := ⟨.hbm, 442, rfl⟩
abbrev main_v328 : Ref sig .tc := ⟨.hbm, 443, rfl⟩
abbrev main_c_89 : Ref sig .tc := ⟨.hbm, 444, rfl⟩
abbrev main_v329 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_c_90 : Ref sig .tc := ⟨.hbm, 453, rfl⟩
abbrev main_v337 : Ref sig .tc := ⟨.hbm, 454, rfl⟩
abbrev main_v338 : Ref sig .tc := ⟨.hbm, 455, rfl⟩
abbrev main_c_91 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_cst_92 : Ref sig .tc := ⟨.hbm, 463, rfl⟩
abbrev main_v345 : Ref sig .tc := ⟨.hbm, 464, rfl⟩
abbrev main_v346 : Ref sig .tc := ⟨.hbm, 465, rfl⟩
abbrev main_v347 : Ref sig .tc := ⟨.hbm, 466, rfl⟩
abbrev main_v348 : Ref sig .tc := ⟨.hbm, 467, rfl⟩
abbrev main_cst_93 : Ref sig .tc := ⟨.hbm, 468, rfl⟩
abbrev main_v349 : Ref sig .tc := ⟨.hbm, 469, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S110000x64 : S_.BroadcastsInDim S110000x64 (![] : Fin 0 → Fin S110000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S110000 : S_.BroadcastsInDim S110000 (![] : Fin 0 → Fin S110000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S_S20000x64 : S_.BroadcastsInDim S20000x64 (![] : Fin 0 → Fin S20000x64.rank)
  bcast_S_S20000 : S_.BroadcastsInDim S20000 (![] : Fin 0 → Fin S20000.rank)
  bcast_S_S10000x64 : S_.BroadcastsInDim S10000x64 (![] : Fin 0 → Fin S10000x64.rank)
  bcast_S_S10000 : S_.BroadcastsInDim S10000 (![] : Fin 0 → Fin S10000.rank)
  bcast_S_S500000x64 : S_.BroadcastsInDim S500000x64 (![] : Fin 0 → Fin S500000x64.rank)
  reducesTo_S500000x64_S500000_d1 : S500000x64.ReducesTo [1] S500000
  h_S_ : 0 < S_.numel
  dot_S500000x16_S16x64_S500000x64_1_0_0_1_n_n_wf : DotDims.WF S500000x16 S16x64 S500000x64 [1] [0] [0] [1] [] []
  scatter_S110000_S500000x1_S500000_n_0_0_1_wf : ScatterDims.WF S110000 S500000x1 S500000 [] [0] [0] 1
  gather_S110000_S500000x1_S500000_n_0_n_n_0_1_1_wf : GatherDims.WF S110000 S500000x1 S500000 [] [0] [] [0] [] 1 ![1]
  gather_S110000x64_S500000x1_S500000x64_1_0_n_n_0_1_164_wf : GatherDims.WF S110000x64 S500000x1 S500000x64 [1] [0] [] [0] [] 1 ![1, 64]
  scatter_S110000x64_S500000x1_S500000x64_1_0_0_1_wf : ScatterDims.WF S110000x64 S500000x1 S500000x64 [1] [0] [0] 1
  scatter_S20000_S500000x1_S500000_n_0_0_1_wf : ScatterDims.WF S20000 S500000x1 S500000 [] [0] [0] 1
  gather_S20000_S500000x1_S500000_n_0_n_n_0_1_1_wf : GatherDims.WF S20000 S500000x1 S500000 [] [0] [] [0] [] 1 ![1]
  gather_S20000x64_S500000x1_S500000x64_1_0_n_n_0_1_164_wf : GatherDims.WF S20000x64 S500000x1 S500000x64 [1] [0] [] [0] [] 1 ![1, 64]
  scatter_S20000x64_S500000x1_S500000x64_1_0_0_1_wf : ScatterDims.WF S20000x64 S500000x1 S500000x64 [1] [0] [0] 1
  scatter_S10000_S500000x1_S500000_n_0_0_1_wf : ScatterDims.WF S10000 S500000x1 S500000 [] [0] [0] 1
  gather_S10000_S500000x1_S500000_n_0_n_n_0_1_1_wf : GatherDims.WF S10000 S500000x1 S500000 [] [0] [] [0] [] 1 ![1]
  gather_S10000x64_S500000x1_S500000x64_1_0_n_n_0_1_164_wf : GatherDims.WF S10000x64 S500000x1 S500000x64 [1] [0] [] [0] [] 1 ![1, 64]
  scatter_S10000x64_S500000x1_S500000x64_1_0_0_1_wf : ScatterDims.WF S10000x64 S500000x1 S500000x64 [1] [0] [0] 1

variable [Facts₀]

def dot_S500000x16_S16x64_S500000x64_1_0_0_1_n_n : DotDims S500000x16 S16x64 S500000x64 where
  lhsContracting := [1]
  rhsContracting := [0]
  lhsNonContracting := [0]
  rhsNonContracting := [1]
  lhsBatch := []
  rhsBatch := []
  wf := dot_S500000x16_S16x64_S500000x64_1_0_0_1_n_n_wf
def scatter_S110000_S500000x1_S500000_n_0_0_1 : ScatterDims S110000 S500000x1 S500000 where
  updateWindowDims := []
  insertedWindowDims := [0]
  scatterDimsToOperandDims := [0]
  indexVectorDim := 1
  wf := scatter_S110000_S500000x1_S500000_n_0_0_1_wf
def gather_S110000_S500000x1_S500000_n_0_n_n_0_1_1 : GatherDims S110000 S500000x1 S500000 where
  offsetDims := []
  collapsedSliceDims := [0]
  operandBatchingDims := []
  startIndicesBatchingDims := []
  startIndexMap := [0]
  indexVectorDim := 1
  sliceSizes := ![1]
  wf := gather_S110000_S500000x1_S500000_n_0_n_n_0_1_1_wf
def gather_S110000x64_S500000x1_S500000x64_1_0_n_n_0_1_164 : GatherDims S110000x64 S500000x1 S500000x64 where
  offsetDims := [1]
  collapsedSliceDims := [0]
  operandBatchingDims := []
  startIndicesBatchingDims := []
  startIndexMap := [0]
  indexVectorDim := 1
  sliceSizes := ![1, 64]
  wf := gather_S110000x64_S500000x1_S500000x64_1_0_n_n_0_1_164_wf
def scatter_S110000x64_S500000x1_S500000x64_1_0_0_1 : ScatterDims S110000x64 S500000x1 S500000x64 where
  updateWindowDims := [1]
  insertedWindowDims := [0]
  scatterDimsToOperandDims := [0]
  indexVectorDim := 1
  wf := scatter_S110000x64_S500000x1_S500000x64_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000_S500000x1_S500000_n_0_n_n_0_1_1 : GatherDims S20000 S500000x1 S500000 where
  offsetDims := []
  collapsedSliceDims := [0]
  operandBatchingDims := []
  startIndicesBatchingDims := []
  startIndexMap := [0]
  indexVectorDim := 1
  sliceSizes := ![1]
  wf := gather_S20000_S500000x1_S500000_n_0_n_n_0_1_1_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf

class Facts : Prop extends Facts₀ where

variable [Facts]
-- ==== Proof.LinkScore.lean ====
/-
  The value both programs compute, as one function of the arrays, index by index over the extended reals.

  For an edge (row) `r` the fused embedding of one endpoint at lane `d` is
      ((P r d + T r d) + G r d) · c + (∑ k, X r k · W k d + b d)
  — the three gathered relation tables summed in that order, scaled by the shared constant `c`, plus the linear
  projection of the endpoint's features — and the edge's score is the sum over the 64 lanes of the product of its two
  endpoints' embeddings. The row count `n` is a parameter: the same function is read on a 4096-row block, on the
  arrays padded to 503808 rows and on the 500000-row arrays. A row of a zero-padded array below the padding is the
  row of the array, so the score there is the score of the unpadded arrays (`score_congr`).
-/
import Idealize.ShloMosaic.PureOps.Ideal
import Idealize.ShloMosaic.Lib.ValueIdx

noncomputable section

namespace Cert.LinkScore

open Idealize.ShloMosaic Idealize.ShloMosaic.ValueIdx

/-- An [n, 64] table, an [n, 16] feature array, a [16, 64] weight and a [64] bias, as functions to the extended reals. -/
abbrev Tab (n : Nat) := (⟨2, ![n, 64]⟩ : Shape).Idx → EReal
abbrev Feat (n : Nat) := (⟨2, ![n, 16]⟩ : Shape).Idx → EReal
abbrev Wt := (⟨2, ![16, 64]⟩ : Shape).Idx → EReal
abbrev Bias := (⟨1, ![64]⟩ : Shape).Idx → EReal

/-- One endpoint's fused embedding at row `r`, lane `d`. -/
def endpoint {n : Nat} (c : EReal) (P T G : Tab n) (X : Feat n) (W : Wt) (b : Bias) (r : Fin n) (d : Fin 64) : EReal :=
  ((P (ix2 r d) + T (ix2 r d)) + G (ix2 r d)) * c + (∑ k : Fin 16, X (ix2 r k) * W (ix2 k d) + b (ix1 d))

/-- The edge's score: the lane sum of the product of the source's and the destination's embeddings. -/
def score {n : Nat} (c : EReal) (Ps Ts Gs : Tab n) (Xs : Feat n) (Ws : Wt) (bs : Bias)
    (Pd Td Gd : Tab n) (Xd : Feat n) (Wd : Wt) (bd : Bias) (r : Fin n) : EReal :=
  ∑ d : Fin 64, endpoint c Ps Ts Gs Xs Ws bs r d * endpoint c Pd Td Gd Xd Wd bd r d

/-- The embedding reads its arrays at row `r` only: arrays of another row count that agree there give the same value. -/
theorem endpoint_congr {n n' : Nat} (c : EReal) (P T G : Tab n) (X : Feat n) (P' T' G' : Tab n') (X' : Feat n') (W : Wt) (b : Bias)
    (r : Fin n) (r' : Fin n') (d : Fin 64)
    (hP : ∀ d, P' (ix2 r' d) = P (ix2 r d)) (hT : ∀ d, T' (ix2 r' d) = T (ix2 r d)) (hG : ∀ d, G' (ix2 r' d) = G (ix2 r d))
    (hX : ∀ k, X' (ix2 r' k) = X (ix2 r k)) :
    endpoint c P' T' G' X' W b r' d = endpoint c P T G X W b r d := by
  unfold endpoint
  rw [hP d, hT d, hG d]
  exact congrArg (fun s => ((P (ix2 r d) + T (ix2 r d)) + G (ix2 r d)) * c + (s + b (ix1 d)))
    (Finset.sum_congr rfl fun k _ => by rw [hX k])

/-- So does the score. -/
theorem score_congr {n n' : Nat} (c : EReal) (Ps Ts Gs : Tab n) (Xs : Feat n) (Pd Td Gd : Tab n) (Xd : Feat n)
    (Ps' Ts' Gs' : Tab n') (Xs' : Feat n') (Pd' Td' Gd' : Tab n') (Xd' : Feat n') (Ws : Wt) (bs : Bias) (Wd : Wt) (bd : Bias)
    (r : Fin n) (r' : Fin n')
    (hPs : ∀ d, Ps' (ix2 r' d) = Ps (ix2 r d)) (hTs : ∀ d, Ts' (ix2 r' d) = Ts (ix2 r d)) (hGs : ∀ d, Gs' (ix2 r' d) = Gs (ix2 r d))
    (hXs : ∀ k, Xs' (ix2 r' k) = Xs (ix2 r k))
    (hPd : ∀ d, Pd' (ix2 r' d) = Pd (ix2 r d)) (hTd : ∀ d, Td' (ix2 r' d) = Td (ix2 r d)) (hGd : ∀ d, Gd' (ix2 r' d) = Gd (ix2 r d))
    (hXd : ∀ k, Xd' (ix2 r' k) = Xd (ix2 r k)) :
    score c Ps' Ts' Gs' Xs' Ws bs Pd' Td' Gd' Xd' Wd bd r' = score c Ps Ts Gs Xs Ws bs Pd Td Gd Xd Wd bd r := by
  unfold score
  exact Finset.sum_congr rfl fun d _ => by
    rw [endpoint_congr c Ps Ts Gs Xs Ps' Ts' Gs' Xs' Ws bs r r' d hPs hTs hGs hXs,
      endpoint_congr c Pd Td Gd Xd Pd' Td' Gd' Xd' Wd bd r r' d hPd hTd hGd hXd]

end Cert.LinkScore

end
-- ==== Proof.BodyScore.lean ====
/-
  What the kernel body stores, read at one row.

  The body loads the twelve blocks whole, and its one store writes, at row `r` of the 4096-row output block, the lane sum
  of the product of the two endpoint embeddings of that row: each embedding is the sum of three table blocks scaled by
  the shared constant plus a [4096,16]·[16,64] product (accumulated into zero, so a plain sum over the 16 features)
  plus the bias laid along the rows. So the stored block is `LinkScore.score` of the loaded blocks, row by row.
-/
import proofs.«414612_j14740327760424_4_alg».proof.Proof.Gen.KernelIdeal.Frame
import proofs.«414612_j14740327760424_4_alg».proof.Proof.LinkScore
import Idealize.ShloMosaic.Lib.ValueIdx
import Idealize.ShloMosaic.Lib.Pipeline.Value
import Idealize.ShloMosaic.PureOps.Ideal.Laws

noncomputable section

namespace Cert.KernelIdeal.BodyScore

open Cert.KernelIdeal Cert.KernelIdeal.Gen Idealize.ShloMosaic Idealize.ShloMosaic.ValueIdx

/-! ## The [4096,16]·[16,64] product at (r, d): the sum over the 16 features -/

theorem lhs_0 (i : S4096x64.Idx) (q : dot_S4096x16_S16x64_S4096x64_1_0_0_1_n_n.contr.Idx) :
    (dot_S4096x16_S16x64_S4096x64_1_0_0_1_n_n.lhsIdx i q 0).val = (i 0).val := by
  unfold DotDims.lhsIdx
  rw [dif_neg (show ¬(0 : Fin S4096x16.rank) ∈ dot_S4096x16_S16x64_S4096x64_1_0_0_1_n_n.lhsBatch by decide), dif_pos (show (0 : Fin S4096x16.rank) ∈ dot_S4096x16_S16x64_S4096x64_1_0_0_1_n_n.lhsNonContracting by decide)]
  rfl
theorem lhs_1 (i : S4096x64.Idx) (q : dot_S4096x16_S16x64_S4096x64_1_0_0_1_n_n.contr.Idx) :
    (dot_S4096x16_S16x64_S4096x64_1_0_0_1_n_n.lhsIdx i q 1).val = (q ⟨0, by decide⟩).val :=
  dot_S4096x16_S16x64_S4096x64_1_0_0_1_n_n.lhsIdx_val_of_single rfl i q
theorem rhs_0 (i : S4096x64.Idx) (q : dot_S4096x16_S16x64_S4096x64_1_0_0_1_n_n.contr.Idx) :
    (dot_S4096x16_S16x64_S4096x64_1_0_0_1_n_n.rhsIdx i q 0).val = (q ⟨0, by decide⟩).val :=
  dot_S4096x16_S16x64_S4096x64_1_0_0_1_n_n.rhsIdx_val_of_single rfl i q
theorem rhs_1 (i : S4096x64.Idx) (q : dot_S4096x16_S16x64_S4096x64_1_0_0_1_n_n.contr.Idx) :
    (dot_S4096x16_S16x64_S4096x64_1_0_0_1_n_n.rhsIdx i q 1).val = (i 1).val := by
  unfold DotDims.rhsIdx
  rw [dif_neg (show ¬(1 : Fin S16x64.rank) ∈ dot_S4096x16_S16x64_S4096x64_1_0_0_1_n_n.rhsBatch by decide), dif_pos (show (1 : Fin S16x64.rank) ∈ dot_S4096x16_S16x64_S4096x64_1_0_0_1_n_n.rhsNonContracting by decide)]
  rfl

/-- The product accumulated into the zero splat, at row `r` and lane `d`. -/
theorem product_apply (X : FVec Ideal S4096x16 .f32) (W : FVec Ideal S16x64 .f32) (r : Fin 4096) (d : Fin 64) :
    matmul dot_S4096x16_S16x64_S4096x64_1_0_0_1_n_n none X W (constant S4096x64 .f32 0x00000000#32) (ix2 r d)
      = ∑ k : Fin 16, X (ix2 r k) * W (ix2 k d) := by
  simp only [matmul]
  rw [Ideal.matmul_constant_zero_apply, ← Equiv.sum_comp (ValueIdx.contrEquiv1 dot_S4096x16_S16x64_S4096x64_1_0_0_1_n_n 16 rfl rfl).symm]
  refine Finset.sum_congr rfl fun k _ => ?_
  have hk := ValueIdx.contrEquiv1_symm_val dot_S4096x16_S16x64_S4096x64_1_0_0_1_n_n 16 rfl rfl k
  have el : dot_S4096x16_S16x64_S4096x64_1_0_0_1_n_n.lhsIdx (ix2 r d) ((ValueIdx.contrEquiv1 dot_S4096x16_S16x64_S4096x64_1_0_0_1_n_n 16 rfl rfl).symm k) = ix2 r k := funext fun a => Fin.ext (by
    match a with
    | ⟨0, _⟩ => exact lhs_0 _ _
    | ⟨1, _⟩ => exact (lhs_1 _ _).trans hk)
  have er : dot_S4096x16_S16x64_S4096x64_1_0_0_1_n_n.rhsIdx (ix2 r d) ((ValueIdx.contrEquiv1 dot_S4096x16_S16x64_S4096x64_1_0_0_1_n_n 16 rfl rfl).symm k) = ix2 k d := funext fun a => Fin.ext (by
    match a with
    | ⟨0, _⟩ => exact (rhs_0 _ _).trans hk
    | ⟨1, _⟩ => exact rhs_1 _ _)
  rw [el, er]

/-! ## The bias laid along the rows -/

/-- The bias as one row, copied down the 4096 rows, read at (r, d): the bias at lane `d`. -/
theorem bias_apply (b : FVec Ideal S64 .f32) (r : Fin 4096) (d : Fin 64) :
    broadcastTo S4096x64 (shapeCast S1x64 b shapeCasts_S64_S1x64) broadcasts_S1x64_S4096x64 (ix2 r d) = b (ix1 d) := by
  refine (broadcastTo_apply _ _ (ix2 r d) (ix2 (0 : Fin 1) d) (fun a => ?_)).trans ?_
  · match a with
    | ⟨0, _⟩ => rfl
    | ⟨1, _⟩ => rfl
  · refine (shapeCast_addUnit_apply ![64] b shapeCasts_S64_S1x64 (ix2 (0 : Fin 1) d)).trans (congrArg b (funext fun a => ?_))
    match a with
    | ⟨0, _⟩ => rfl

/-! ## The payloads at an index -/

/-- The projection plus bias of the destination's features (`%15`). -/
theorem proj_apply (X : FVec Ideal S4096x16 .f32) (W : FVec Ideal S16x64 .f32) (b : FVec Ideal S64 .f32) (r : Fin 4096) (d : Fin 64) :
    k0_pay2 (F := Ideal) X W b (ix2 r d) = ∑ k : Fin 16, X (ix2 r k) * W (ix2 k d) + b (ix1 d) := by
  unfold k0_pay2
  simp only [shapeCast_self]
  show matmul dot_S4096x16_S16x64_S4096x64_1_0_0_1_n_n none X W (constant S4096x64 .f32 0x00000000#32) (ix2 r d)
      + broadcastTo S4096x64 (shapeCast S1x64 b shapeCasts_S64_S1x64) broadcasts_S1x64_S4096x64 (ix2 r d) = _
  rw [product_apply, bias_apply]

/-- The source's embedding (`%26`). -/
theorem src_apply (X : FVec Ideal S4096x16 .f32) (W : FVec Ideal S16x64 .f32) (b : FVec Ideal S64 .f32) (P T G : FVec Ideal S4096x64 .f32)
    (r : Fin 4096) (d : Fin 64) :
    k0_pay3 (F := Ideal) X W b P T G (ix2 r d)
      = LinkScore.endpoint (Ideal.ofBits .f32 0x3EAAAAAB#32) P T G X W b r d := by
  unfold k0_pay3 LinkScore.endpoint
  simp only [shapeCast_self]
  show ((P (ix2 r d) + T (ix2 r d)) + G (ix2 r d)) * Ideal.ofBits .f32 0x3EAAAAAB#32
      + (matmul dot_S4096x16_S16x64_S4096x64_1_0_0_1_n_n none X W (constant S4096x64 .f32 0x00000000#32) (ix2 r d)
        + broadcastTo S4096x64 (shapeCast S1x64 b shapeCasts_S64_S1x64) broadcasts_S1x64_S4096x64 (ix2 r d)) = _
  rw [product_apply, bias_apply]

/-- A sum over the lanes of a [4096,64] vector, read at row `r`: the sum over the 64 lanes of the row's entries (whatever
    proofs the printed reduction carries of its format and of its neutral accumulator). -/
theorem lane_sum (v : FVec Ideal S4096x64 .f32) (hφ : FKind.Formats .f32) (hacc : (0x00000000#32 : BitVec 32) = FKind.add.neutral .f32 hφ)
    (r : Fin 4096) :
    multiReduction .add [1] S4096 v 0x00000000#32 reduces_S4096x64_S4096 hφ hacc (ix1 r) = ∑ d : Fin 64, v (ix2 r d) :=
  (Ideal.multiReduction_add_single v 0x00000000#32 reduces_S4096x64_S4096 hφ hacc (ix1 r)).trans
    (Finset.sum_congr rfl fun d _ => congrArg v (funext fun a => Fin.ext (by
      match a with
      | ⟨0, _⟩ => rfl
      | ⟨1, _⟩ => rfl)))

/-- The stored vector (`%39`), at row `r`: the lane sum of the source's embedding times the destination's, the latter
    assembled from its two partial sums and its projection. -/
theorem store_apply (fd src pt g : FVec Ideal S4096x64 .f32) (r : Fin 4096) :
    k0_pay1 (F := Ideal) fd src pt g (ix1 r)
      = ∑ d : Fin 64, src (ix2 r d) * ((pt (ix2 r d) + g (ix2 r d)) * Ideal.ofBits .f32 0x3EAAAAAB#32 + fd (ix2 r d)) := by
  unfold k0_pay1
  dsimp only
  exact lane_sum _ _ _ r

/-- THE BLOCK the body leaves in the output window, row by row: the score of the loaded blocks. -/
theorem out_apply (x0 x1 x2 x3 x4 x5 : Vec Ideal S4096x64 .f32) (x6 x7 : Vec Ideal S4096x16 .f32) (x8 : Vec Ideal S16x64 .f32)
    (x9 : Vec Ideal S64 .f32) (x10 : Vec Ideal S16x64 .f32) (x11 : Vec Ideal S64 .f32) (r : Fin 4096) :
    out0_12 (F := Ideal) x0 x1 x2 x3 x4 x5 x6 x7 x8 x9 x10 x11 (ix1 r)
      = LinkScore.score (Ideal.ofBits .f32 0x3EAAAAAB#32) x0 x2 x4 x6 x8 x9 x1 x3 x5 x7 x10 x11 r := by
  have hz1 : (![0] : Fin 1 → Nat) = fun _ => 0 := funext fun a => by fin_cases a; rfl
  have hz2 : (![0, 0] : Fin 2 → Nat) = fun _ => 0 := funext fun a => by fin_cases a <;> rfl
  unfold out0_12
  rw [View.canon_unit_zero hz1]
  simp only [View.ld_unit_zero (S := S4096x64) hz2, View.ld_unit_zero (S := S4096x16) hz2, View.ld_unit_zero (S := S16x64) hz2,
    View.ld_unit_zero (S := S64) hz1]
  refine (store_apply _ _ _ _ r).trans ?_
  unfold LinkScore.score
  refine Finset.sum_congr rfl fun d _ => ?_
  rw [src_apply]
  refine congrArg (LinkScore.endpoint (Ideal.ofBits .f32 0x3EAAAAAB#32) x0 x2 x4 x6 x8 x9 r d * ·) ?_
  unfold LinkScore.endpoint
  rw [proj_apply]
  unfold k0_pay4 k0_pay5
  simp only [shapeCast_self]
  rfl

end Cert.KernelIdeal.BodyScore

end
-- ==== Proof.ArrayScore.lean ====
/-
  From the blocks to the kernel's result array.

  The region runs 123 points; point `t` reads rows `4096·t … 4096·t + 4095` of the eight row-tiled arrays (six tables
  of 64 lanes, two feature arrays of 16), the two weights and the two biases whole, and writes back rows
  `4096·t … 4096·t + 4095` of the 503808-row output. A block of the output at a point is the score of that point's
  input blocks (`BodyScore.out_apply`), and a row of an input block is the row of its array, so the block is rows
  `4096·t …` of ONE function of the arrays, `rows`: the score of the arrays as the region finds them, row by row. The 123
  blocks tile the output, so the output array ends at `rows`; the one host operation after the region keeps its first
  500000 rows, which is the kernel's result.
-/
import proofs.«414612_j14740327760424_4_alg».proof.Proof.Gen.KernelIdeal.Frame
import proofs.«414612_j14740327760424_4_alg».proof.Proof.LinkScore
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.ArrayScore

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The score of the arrays the region finds, at each of the 503808 padded rows. -/
def rows (c : Dev nD) : S503808.Idx → EReal := fun j =>
  LinkScore.score (Ideal.ofBits .f32 0x3EAAAAAB#32)
    (V m c main_call0_v243) (V m c main_call0_v245) (V m c main_call0_v247) (V m c main_call0_v249) (V m c main_arg8) (V m c main_arg9)
    (V m c main_call0_v244) (V m c main_call0_v246) (V m c main_call0_v248) (V m c main_call0_v250) (V m c main_arg10) (V m c main_arg11)
    ⟨(j 0).val, (j 0).isLt⟩

/-- The printed index maps over the grid: every row-tiled window's block index is the point's number, the weights'
    and biases' block index is zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ win0_12.index t (0 : Fin 1) = t.val :=
  (by decide +kernel : ∀ t : Fin grid0.N, _)

theorem point_lt (t : Fin cfg0.N) : t.val < 123 := lt_of_lt_of_eq t.isLt N_0

/-! ## A row of an input block is a row of its array -/

/-- The array row that row `r` of point `t`'s block is. -/
abbrev rowOf (t : Fin cfg0.N) (r : Fin 4096) : Fin 503808 := ⟨t.val * 4096 + r.val, by have := point_lt t; have := r.isLt; omega⟩

/-! For each row-tiled window: where the block's view sends (r, lane) in the array (an index equation, decided from the
    printed index map), then the block read there. -/

theorem emb0 (t : Fin cfg0.N) (r : Fin 4096) (d : Fin 64) : ((cfg0.win 0).blk t).view.emb (ix2 r d) = ix2 (rowOf t r) d := by
  obtain ⟨⟨e0, e1⟩, -⟩ := idx_facts t
  funext a
  apply Fin.ext
  match a with
  | ⟨0, _⟩ => show win0_0.index t (0 : Fin 2) * 4096 + 1 * r.val = t.val * 4096 + r.val; rw [e0]; omega
  | ⟨1, _⟩ => show win0_0.index t (1 : Fin 2) * 64 + 1 * d.val = d.val; rw [e1]; omega

theorem blk0 (c : Dev nD) (t : Fin cfg0.N) (r : Fin 4096) (d : Fin 64) :
    (iblk m c 0 t : Vec Ideal S4096x64 .f32) (ix2 r d) = (V m c main_call0_v243 : S503808x64.Idx → EReal) (ix2 (rowOf t r) d) := by
  unfold iblk
  rw [View.read_apply, emb0]
  rfl

theorem emb1 (t : Fin cfg0.N) (r : Fin 4096) (d : Fin 64) : ((cfg0.win 1).blk t).view.emb (ix2 r d) = ix2 (rowOf t r) d := by
  obtain ⟨-, ⟨e0, e1⟩, -⟩ := idx_facts t
  funext a
  apply Fin.ext
  match a with
  | ⟨0, _⟩ => show win0_1.index t (0 : Fin 2) * 4096 + 1 * r.val = t.val * 4096 + r.val; rw [e0]; omega
  | ⟨1, _⟩ => show win0_1.index t (1 : Fin 2) * 64 + 1 * d.val = d.val; rw [e1]; omega

theorem blk1 (c : Dev nD) (t : Fin cfg0.N) (r : Fin 4096) (d : Fin 64) :
    (iblk m c 1 t : Vec Ideal S4096x64 .f32) (ix2 r d) = (V m c main_call0_v244 : S503808x64.Idx → EReal) (ix2 (rowOf t r) d) := by
  unfold iblk
  rw [View.read_apply, emb1]
  rfl

theorem emb2 (t : Fin cfg0.N) (r : Fin 4096) (d : Fin 64) : ((cfg0.win 2).blk t).view.emb (ix2 r d) = ix2 (rowOf t r) d := by
  obtain ⟨-, -, ⟨e0, e1⟩, -⟩ := idx_facts t
  funext a
  apply Fin.ext
  match a with
  | ⟨0, _⟩ => show win0_2.index t (0 : Fin 2) * 4096 + 1 * r.val = t.val * 4096 + r.val; rw [e0]; omega
  | ⟨1, _⟩ => show win0_2.index t (1 : Fin 2) * 64 + 1 * d.val = d.val; rw [e1]; omega

theorem blk2 (c : Dev nD) (t : Fin cfg0.N) (r : Fin 4096) (d : Fin 64) :
    (iblk m c 2 t : Vec Ideal S4096x64 .f32) (ix2 r d) = (V m c main_call0_v245 : S503808x64.Idx → EReal) (ix2 (rowOf t r) d) := by
  unfold iblk
  rw [View.read_apply, emb2]
  rfl

theorem emb3 (t : Fin cfg0.N) (r : Fin 4096) (d : Fin 64) : ((cfg0.win 3).blk t).view.emb (ix2 r d) = ix2 (rowOf t r) d := by
  obtain ⟨-, -, -, ⟨e0, e1⟩, -⟩ := idx_facts t
  funext a
  apply Fin.ext
  match a with
  | ⟨0, _⟩ => show win0_3.index t (0 : Fin 2) * 4096 + 1 * r.val = t.val * 4096 + r.val; rw [e0]; omega
  | ⟨1, _⟩ => show win0_3.index t (1 : Fin 2) * 64 + 1 * d.val = d.val; rw [e1]; omega

theorem blk3 (c : Dev nD) (t : Fin cfg0.N) (r : Fin 4096) (d : Fin 64) :
    (iblk m c 3 t : Vec Ideal S4096x64 .f32) (ix2 r d) = (V m c main_call0_v246 : S503808x64.Idx → EReal) (ix2 (rowOf t r) d) := by
  unfold iblk
  rw [View.read_apply, emb3]
  rfl

theorem emb4 (t : Fin cfg0.N) (r : Fin 4096) (d : Fin 64) : ((cfg0.win 4).blk t).view.emb (ix2 r d) = ix2 (rowOf t r) d := by
  obtain ⟨-, -, -, -, ⟨e0, e1⟩, -⟩ := idx_facts t
  funext a
  apply Fin.ext
  match a with
  | ⟨0, _⟩ => show win0_4.index t (0 : Fin 2) * 4096 + 1 * r.val = t.val * 4096 + r.val; rw [e0]; omega
  | ⟨1, _⟩ => show win0_4.index t (1 : Fin 2) * 64 + 1 * d.val = d.val; rw [e1]; omega

theorem blk4 (c : Dev nD) (t : Fin cfg0.N) (r : Fin 4096) (d : Fin 64) :
    (iblk m c 4 t : Vec Ideal S4096x64 .f32) (ix2 r d) = (V m c main_call0_v247 : S503808x64.Idx → EReal) (ix2 (rowOf t r) d) := by
  unfold iblk
  rw [View.read_apply, emb4]
  rfl

theorem emb5 (t : Fin cfg0.N) (r : Fin 4096) (d : Fin 64) : ((cfg0.win 5).blk t).view.emb (ix2 r d) = ix2 (rowOf t r) d := by
  obtain ⟨-, -, -, -, -, ⟨e0, e1⟩, -⟩ := idx_facts t
  funext a
  apply Fin.ext
  match a with
  | ⟨0, _⟩ => show win0_5.index t (0 : Fin 2) * 4096 + 1 * r.val = t.val * 4096 + r.val; rw [e0]; omega
  | ⟨1, _⟩ => show win0_5.index t (1 : Fin 2) * 64 + 1 * d.val = d.val; rw [e1]; omega

theorem blk5 (c : Dev nD) (t : Fin cfg0.N) (r : Fin 4096) (d : Fin 64) :
    (iblk m c 5 t : Vec Ideal S4096x64 .f32) (ix2 r d) = (V m c main_call0_v248 : S503808x64.Idx → EReal) (ix2 (rowOf t r) d) := by
  unfold iblk
  rw [View.read_apply, emb5]
  rfl

theorem emb6 (t : Fin cfg0.N) (r : Fin 4096) (k : Fin 16) : ((cfg0.win 6).blk t).view.emb (ix2 r k) = ix2 (rowOf t r) k := by
  obtain ⟨-, -, -, -, -, -, ⟨e0, e1⟩, -⟩ := idx_facts t
  funext a
  apply Fin.ext
  match a with
  | ⟨0, _⟩ => show win0_6.index t (0 : Fin 2) * 4096 + 1 * r.val = t.val * 4096 + r.val; rw [e0]; omega
  | ⟨1, _⟩ => show win0_6.index t (1 : Fin 2) * 16 + 1 * k.val = k.val; rw [e1]; omega

theorem blk6 (c : Dev nD) (t : Fin cfg0.N) (r : Fin 4096) (k : Fin 16) :
    (iblk m c 6 t : Vec Ideal S4096x16 .f32) (ix2 r k) = (V m c main_call0_v249 : S503808x16.Idx → EReal) (ix2 (rowOf t r) k) := by
  unfold iblk
  rw [View.read_apply, emb6]
  rfl

theorem emb7 (t : Fin cfg0.N) (r : Fin 4096) (k : Fin 16) : ((cfg0.win 7).blk t).view.emb (ix2 r k) = ix2 (rowOf t r) k := by
  obtain ⟨-, -, -, -, -, -, -, ⟨e0, e1⟩, -⟩ := idx_facts t
  funext a
  apply Fin.ext
  match a with
  | ⟨0, _⟩ => show win0_7.index t (0 : Fin 2) * 4096 + 1 * r.val = t.val * 4096 + r.val; rw [e0]; omega
  | ⟨1, _⟩ => show win0_7.index t (1 : Fin 2) * 16 + 1 * k.val = k.val; rw [e1]; omega

theorem blk7 (c : Dev nD) (t : Fin cfg0.N) (r : Fin 4096) (k : Fin 16) :
    (iblk m c 7 t : Vec Ideal S4096x16 .f32) (ix2 r k) = (V m c main_call0_v250 : S503808x16.Idx → EReal) (ix2 (rowOf t r) k) := by
  unfold iblk
  rw [View.read_apply, emb7]
  rfl

/-! The weights and biases are staged whole: the block's view sends an index to itself, and the block IS the array. -/

theorem emb8 (t : Fin cfg0.N) (y : S16x64.Idx) : ((cfg0.win 8).blk t).view.emb y = y := by
  obtain ⟨-, -, -, -, -, -, -, -, ⟨e0, e1⟩, -⟩ := idx_facts t
  funext a
  apply Fin.ext
  match a with
  | ⟨0, _⟩ => show win0_8.index t (0 : Fin 2) * 16 + 1 * (y 0).val = (y 0).val; rw [e0]; omega
  | ⟨1, _⟩ => show win0_8.index t (1 : Fin 2) * 64 + 1 * (y 1).val = (y 1).val; rw [e1]; omega

theorem blk8 (c : Dev nD) (t : Fin cfg0.N) : (iblk m c 8 t : Vec Ideal S16x64 .f32) = (V m c main_arg8 : S16x64.Idx → EReal) := by
  funext y
  unfold iblk
  rw [View.read_apply, emb8]
  rfl

theorem emb9 (t : Fin cfg0.N) (y : S64.Idx) : ((cfg0.win 9).blk t).view.emb y = y := by
  obtain ⟨-, -, -, -, -, -, -, -, -, e0, -⟩ := idx_facts t
  funext a
  apply Fin.ext
  match a with
  | ⟨0, _⟩ => show win0_9.index t (0 : Fin 1) * 64 + 1 * (y 0).val = (y 0).val; rw [e0]; omega

theorem blk9 (c : Dev nD) (t : Fin cfg0.N) : (iblk m c 9 t : Vec Ideal S64 .f32) = (V m c main_arg9 : S64.Idx → EReal) := by
  funext y
  unfold iblk
  rw [View.read_apply, emb9]
  rfl

theorem emb10 (t : Fin cfg0.N) (y : S16x64.Idx) : ((cfg0.win 10).blk t).view.emb y = y := by
  obtain ⟨-, -, -, -, -, -, -, -, -, -, ⟨e0, e1⟩, -⟩ := idx_facts t
  funext a
  apply Fin.ext
  match a with
  | ⟨0, _⟩ => show win0_10.index t (0 : Fin 2) * 16 + 1 * (y 0).val = (y 0).val; rw [e0]; omega
  | ⟨1, _⟩ => show win0_10.index t (1 : Fin 2) * 64 + 1 * (y 1).val = (y 1).val; rw [e1]; omega

theorem blk10 (c : Dev nD) (t : Fin cfg0.N) : (iblk m c 10 t : Vec Ideal S16x64 .f32) = (V m c main_arg10 : S16x64.Idx → EReal) := by
  funext y
  unfold iblk
  rw [View.read_apply, emb10]
  rfl

theorem emb11 (t : Fin cfg0.N) (y : S64.Idx) : ((cfg0.win 11).blk t).view.emb y = y := by
  obtain ⟨-, -, -, -, -, -, -, -, -, -, -, e0, -⟩ := idx_facts t
  funext a
  apply Fin.ext
  match a with
  | ⟨0, _⟩ => show win0_11.index t (0 : Fin 1) * 64 + 1 * (y 0).val = (y 0).val; rw [e0]; omega

theorem blk11 (c : Dev nD) (t : Fin cfg0.N) : (iblk m c 11 t : Vec Ideal S64 .f32) = (V m c main_arg11 : S64.Idx → EReal) := by
  funext y
  unfold iblk
  rw [View.read_apply, emb11]
  rfl

/-! ## What a point writes back, the cover, the array -/

/-- The body's block, row by row, as `BodyScore.out_apply` states it (taken as a hypothesis here so that this module
    needs only the generated frame). -/
abbrev BodyFact : Prop :=
  ∀ (x0 x1 x2 x3 x4 x5 : Vec Ideal S4096x64 .f32) (x6 x7 : Vec Ideal S4096x16 .f32) (x8 : Vec Ideal S16x64 .f32)
    (x9 : Vec Ideal S64 .f32) (x10 : Vec Ideal S16x64 .f32) (x11 : Vec Ideal S64 .f32) (y : S4096.Idx),
    out0_12 (F := Ideal) x0 x1 x2 x3 x4 x5 x6 x7 x8 x9 x10 x11 y
      = LinkScore.score (Ideal.ofBits .f32 0x3EAAAAAB#32) x0 x2 x4 x6 x8 x9 x1 x3 x5 x7 x10 x11 ⟨(y 0).val, (y 0).isLt⟩

/-- `rows` at the array row that is row `r` of point `t`'s blocks: the score of the point's input blocks at `r`. -/
theorem rows_at (c : Dev nD) (t : Fin cfg0.N) (r : Fin 4096) (j : S503808.Idx) (hj : (j 0).val = t.val * 4096 + r.val) :
    rows m c j = LinkScore.score (Ideal.ofBits .f32 0x3EAAAAAB#32)
      (iblk m c 0 t : Vec Ideal S4096x64 .f32) (iblk m c 2 t : Vec Ideal S4096x64 .f32) (iblk m c 4 t : Vec Ideal S4096x64 .f32)
      (iblk m c 6 t : Vec Ideal S4096x16 .f32) (iblk m c 8 t : Vec Ideal S16x64 .f32) (iblk m c 9 t : Vec Ideal S64 .f32)
      (iblk m c 1 t : Vec Ideal S4096x64 .f32) (iblk m c 3 t : Vec Ideal S4096x64 .f32) (iblk m c 5 t : Vec Ideal S4096x64 .f32)
      (iblk m c 7 t : Vec Ideal S4096x16 .f32) (iblk m c 10 t : Vec Ideal S16x64 .f32) (iblk m c 11 t : Vec Ideal S64 .f32) r := by
  have hr : (⟨(j 0).val, (j 0).isLt⟩ : Fin 503808) = rowOf t r := Fin.ext hj
  unfold rows
  rw [hr, blk8, blk9, blk10, blk11]
  exact (LinkScore.score_congr (Ideal.ofBits .f32 0x3EAAAAAB#32)
    (V m c main_call0_v243) (V m c main_call0_v245) (V m c main_call0_v247) (V m c main_call0_v249)
    (V m c main_call0_v244) (V m c main_call0_v246) (V m c main_call0_v248) (V m c main_call0_v250)
    (iblk m c 0 t : Vec Ideal S4096x64 .f32) (iblk m c 2 t : Vec Ideal S4096x64 .f32) (iblk m c 4 t : Vec Ideal S4096x64 .f32)
    (iblk m c 6 t : Vec Ideal S4096x16 .f32)
    (iblk m c 1 t : Vec Ideal S4096x64 .f32) (iblk m c 3 t : Vec Ideal S4096x64 .f32) (iblk m c 5 t : Vec Ideal S4096x64 .f32)
    (iblk m c 7 t : Vec Ideal S4096x16 .f32)
    (V m c main_arg8) (V m c main_arg9) (V m c main_arg10) (V m c main_arg11) (rowOf t r) r
    (fun d => blk0 m c t r d) (fun d => blk2 m c t r d) (fun d => blk4 m c t r d) (fun k => blk6 m c t r k)
    (fun d => blk1 m c t r d) (fun d => blk3 m c t r d) (fun d => blk5 m c t r d) (fun k => blk7 m c t r k)).symm

/-- WHAT POINT `t` WRITES BACK is rows `4096·t …` of `rows`. -/
theorem flushed_eq (hbody : BodyFact) (c : Dev nD) (t : Fin cfg0.N) :
    (dats m 0 c).flushed 12 t = ((cfg0.win 12).blk t).view.read (Elt Ideal) (rows m c) := by
  obtain ⟨-, -, -, -, -, -, -, -, -, -, -, -, e12⟩ := idx_facts t
  show (cfg0.win 12).cut (grid0.coords t) ((dats m 0 c).after 12 t) = _
  rw [after0_12]
  funext y
  show out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y
    = rows m c (((cfg0.win 12).blk t).view.emb y)
  refine (hbody _ _ _ _ _ _ _ _ _ _ _ _ y).trans ?_
  exact (rows_at m c t ⟨(y 0).val, (y 0).isLt⟩ _ (by
    show win0_12.index t (0 : Fin 1) * 4096 + 1 * (y 0).val = t.val * 4096 + (y 0).val
    rw [e12]; omega)).symm

/-- An index of the output array is in point `t`'s block iff its row is among the block's 4096. -/
theorem mem_blk (t : Fin cfg0.N) (i : S503808.Idx) :
    i ∈ ((cfg0.win 12).blk t).view.set ↔ ∀ a : Fin 1, win0_12.index t a * S4096.size a ≤ (i a).val ∧ (i a).val < win0_12.index t a * S4096.size a + S4096.size a := by
  show i ∈ ((View.whole main_call0_v251).slice (win0_12.rect t)).set ↔ _
  rw [View.set_slice_whole, Rect.mem_set_unit]
  exact Iff.rfl

/-- The 123 blocks tile the 503808 rows: row `i` is in the block of point `i / 4096`. -/
theorem cover (i : S503808.Idx) : ∃ t : Fin cfg0.N, (cfg0.win 12).flush t = true ∧ i ∈ ((cfg0.win 12).blk t).view.set := by
  have hi : (i 0).val < 503808 := (i 0).isLt
  have hN : cfg0.N = 123 := N_0
  have ht : (i 0).val / 4096 < cfg0.N := by rw [hN]; omega
  obtain ⟨-, -, -, -, -, -, -, -, -, -, -, -, e12⟩ := idx_facts ⟨(i 0).val / 4096, ht⟩
  refine ⟨⟨(i 0).val / 4096, ht⟩, flush0_12 _, ?_⟩
  rw [mem_blk]
  intro a
  match a with
  | ⟨0, _⟩ =>
    show win0_12.index ⟨(i 0).val / 4096, ht⟩ (0 : Fin 1) * 4096 ≤ (i 0).val ∧ (i 0).val < win0_12.index ⟨(i 0).val / 4096, ht⟩ (0 : Fin 1) * 4096 + 4096
    rw [e12]
    show (i 0).val / 4096 * 4096 ≤ (i 0).val ∧ (i 0).val < (i 0).val / 4096 * 4096 + 4096
    omega

/-- THE OUTPUT ARRAY after the region: the score at every padded row. -/
theorem final (hbody : BodyFact) (c : Dev nD) : (dats m 0 c).arrAt 12 cfg0.N = rows m c :=
  (dats m 0 c).arrAt_eq_of_cover 12 (rows m c) (fun t _ => flushed_eq m hbody c t) cover

/-! ## The host operation after the region, and the run -/

/-- The padded row with an edge's number. -/
abbrev edgeRow (i : S500000.Idx) : S503808.Idx := ix1 (⟨(i 0).val, lt_trans (i 0).isLt (by decide)⟩ : Fin 503808)

/-- The first 500000 entries of a 503808-entry array, read at `i`: the array at the padded row with `i`'s number. -/
theorem first_rows (R : S503808.Idx → EReal) (i : S500000.Idx) :
    extractStridedSlice S500000 ![0] R slices_S503808_S500000_0 i = R (edgeRow i) :=
  extractStridedSlice_apply ![0] R slices_S503808_S500000_0 i (edgeRow i) (fun a => by
    match a with
    | ⟨0, _⟩ => show (i 0).val = 0 + (i 0).val; omega)

set_option maxHeartbeats 2000000 in
/-- The kernel's result: the first 500000 rows of the output array. -/
theorem result_eq (hbody : BodyFact) (c : Dev nD) :
    Pipeline.afterTail₀ cfgs (dats m) 0 (V0 m) [hostOps1] c main_v0 = (fun i : S500000.Idx => rows m c (edgeRow i)) := by
  unfold Pipeline.afterTail₀
  show StableHlo.after hostOps1 _ (Proc.devRef .tc main_v0) = _
  after_results
  rw [Pipeline.withArrays_arr spec0 launch0.win.arr_inj c _ _ 12, final m hbody c]
  generalize rows m c = R
  funext i
  simp only [TRef.ofBuf, TRef.toBuf, cast_eq]
  exact first_rows R i

/-- The frame run re-posted: the result at the score of the arrays the region finds, row by row; the arguments unchanged. -/
theorem run (hbody : BodyFact) : θ_run defs (onTc (τ := τ) (main (F := Ideal))) ⟨m, fun _ => 0, ρ⟩ fun r => ∀ c : Dev nD,
      r.2.mem ((c.tc : Thread nD τ).loc main_v0) = (fun i : S500000.Idx => rows m c (edgeRow i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v0 (Pipeline.mem_restRefs_of main_v0 (by decide) (by decide))).trans (result_eq m hbody c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.KernelIdeal.ArrayScore

end
-- ==== Proof.HostTables.lean ====
/-
  The arrays the region stages, as the host operations before it leave them.

  Before the region @main propagates each relation's embeddings two layers over its edge list — the degree of every
  node by a scatter-add of ones, its inverse square root where positive, the symmetric weight of every edge, then twice
  a gather of the source rows scaled by the edge weights and scatter-added at the destinations, the layers averaged with
  the embeddings by the shared constant —, gathers the propagated table at the edges' two endpoints and pads each
  gathered array, and the two feature arrays, with 3808 rows. The reference computes the same operations on the same
  arguments (it recomputes the edge weights in each layer where @main shares them, which changes no value), so each staged
  table is the padding of the reference's gathered table: the two composed terms are one, operation for operation, at
  any float family.
-/
import proofs.«414612_j14740327760424_4_alg».proof.Proof.Gen.KernelIdeal.Frame
import proofs.«414612_j14740327760424_4_alg».proof.Proof.RefRead
import Idealize.ShloMosaic.Lib.StableHlo.Run

set_option maxRecDepth 16384

noncomputable section

open Idealize.ShloMosaic Idealize.ShloMosaic.TcCoe Idealize.SL.Sem

namespace Cert.KernelIdeal.HostTables

open Cert.KernelIdeal Cert.KernelIdeal.Gen Idealize.ShloMosaic.StableHlo

variable {F : FTy → Type} [FloatOps F]
variable (m : (ℓ : Loc nD τ sig) → Buf (Elt F) ℓ)

set_option maxHeartbeats 40000000 in
/-- Window 0's array: the first relation's propagated table gathered at the edges' sources, padded. -/
theorem up_src (c : Dev nD) :
    V m c main_call0_v243 = pad S503808x64 ![0, 0] ![3808, 0] ![0, 0]
      (Cert.ReferenceIdeal.ReadP.val_main_v292 (F := F) (m ((c.tc : Thread nD τ).loc main_arg0)) (m ((c.tc : Thread nD τ).loc main_arg5)))
      (sitofp .f32 (constantI S_ 32 0#32)) pads_S500000x64_S503808x64_038080_000 h_S_ := by
  show StableHlo.after hostOps0 (fun b => m (c, b)) (Proc.devRef .tc main_call0_v243) = _
  after_results_simp
  rfl

set_option maxHeartbeats 40000000 in
/-- Window 1's array: the same table gathered at the edges' destinations, padded. -/
theorem up_dst (c : Dev nD) :
    V m c main_call0_v244 = pad S503808x64 ![0, 0] ![3808, 0] ![0, 0]
      (Cert.ReferenceIdeal.ReadP.val_main_v324 (F := F) (m ((c.tc : Thread nD τ).loc main_arg0)) (m ((c.tc : Thread nD τ).loc main_arg5)))
      (sitofp .f32 (constantI S_ 32 0#32)) pads_S500000x64_S503808x64_038080_000 h_S_ := by
  show StableHlo.after hostOps0 (fun b => m (c, b)) (Proc.devRef .tc main_call0_v244) = _
  after_results_simp
  rfl

set_option maxHeartbeats 40000000 in
/-- Window 2's array: the second relation's propagated table gathered at the edges' sources, padded. -/
theorem ut_src (c : Dev nD) :
    V m c main_call0_v245 = pad S503808x64 ![0, 0] ![3808, 0] ![0, 0]
      (Cert.ReferenceIdeal.ReadP.val_main_v301 (F := F) (m ((c.tc : Thread nD τ).loc main_arg1)) (m ((c.tc : Thread nD τ).loc main_arg6)))
      (sitofp .f32 (constantI S_ 32 0#32)) pads_S500000x64_S503808x64_038080_000 h_S_ := by
  show StableHlo.after hostOps0 (fun b => m (c, b)) (Proc.devRef .tc main_call0_v245) = _
  after_results_simp
  rfl

set_option maxHeartbeats 40000000 in
/-- Window 3's array: the same table gathered at the edges' destinations, padded. -/
theorem ut_dst (c : Dev nD) :
    V m c main_call0_v246 = pad S503808x64 ![0, 0] ![3808, 0] ![0, 0]
      (Cert.ReferenceIdeal.ReadP.val_main_v333 (F := F) (m ((c.tc : Thread nD τ).loc main_arg1)) (m ((c.tc : Thread nD τ).loc main_arg6)))
      (sitofp .f32 (constantI S_ 32 0#32)) pads_S500000x64_S503808x64_038080_000 h_S_ := by
  show StableHlo.after hostOps0 (fun b => m (c, b)) (Proc.devRef .tc main_call0_v246) = _
  after_results_simp
  rfl

set_option maxHeartbeats 40000000 in
/-- Window 4's array: the third relation's propagated table gathered at the edges' sources, padded. -/
theorem utag_src (c : Dev nD) :
    V m c main_call0_v247 = pad S503808x64 ![0, 0] ![3808, 0] ![0, 0]
      (Cert.ReferenceIdeal.ReadP.val_main_v311 (F := F) (m ((c.tc : Thread nD τ).loc main_arg2)) (m ((c.tc : Thread nD τ).loc main_arg7)))
      (sitofp .f32 (constantI S_ 32 0#32)) pads_S500000x64_S503808x64_038080_000 h_S_ := by
  show StableHlo.after hostOps0 (fun b => m (c, b)) (Proc.devRef .tc main_call0_v247) = _
  after_results_simp
  rfl

set_option maxHeartbeats 40000000 in
/-- Window 5's array: the same table gathered at the edges' destinations, padded. -/
theorem utag_dst (c : Dev nD) :
    V m c main_call0_v248 = pad S503808x64 ![0, 0] ![3808, 0] ![0, 0]
      (Cert.ReferenceIdeal.ReadP.val_main_v343 (F := F) (m ((c.tc : Thread nD τ).loc main_arg2)) (m ((c.tc : Thread nD τ).loc main_arg7)))
      (sitofp .f32 (constantI S_ 32 0#32)) pads_S500000x64_S503808x64_038080_000 h_S_ := by
  show StableHlo.after hostOps0 (fun b => m (c, b)) (Proc.devRef .tc main_call0_v248) = _
  after_results_simp
  rfl

set_option maxHeartbeats 40000000 in
/-- Window 6's array: the source features, padded. -/
theorem src_feat (c : Dev nD) :
    V m c main_call0_v249 = pad S503808x16 ![0, 0] ![3808, 0] ![0, 0] (m ((c.tc : Thread nD τ).loc main_arg3))
      (sitofp .f32 (constantI S_ 32 0#32)) pads_S500000x16_S503808x16_038080_000 h_S_ := by
  show StableHlo.after hostOps0 (fun b => m (c, b)) (Proc.devRef .tc main_call0_v249) = _
  after_results_simp
  rfl

set_option maxHeartbeats 40000000 in
/-- Window 7's array: the destination features, padded. -/
theorem dst_feat (c : Dev nD) :
    V m c main_call0_v250 = pad S503808x16 ![0, 0] ![3808, 0] ![0, 0] (m ((c.tc : Thread nD τ).loc main_arg4))
      (sitofp .f32 (constantI S_ 32 0#32)) pads_S500000x16_S503808x16_038080_000 h_S_ := by
  show StableHlo.after hostOps0 (fun b => m (c, b)) (Proc.devRef .tc main_call0_v250) = _
  after_results_simp
  rfl

end Cert.KernelIdeal.HostTables

end
-- ==== Proof.PaddedRows.lean ====
/-
  The padding does not reach the result.

  The eight row-tiled arrays the region stages are its tables and features padded with 3808 rows at the end (to 123
  blocks of 4096 rows). A row below 500000 of such a padded array is the row of the array padded, whatever the padding
  value; the score of a row reads its arrays at that row only; and the kernel keeps the first 500000 rows. So the
  kernel's result at edge `i` is the score of the unpadded arrays at row `i`.
-/
import proofs.«414612_j14740327760424_4_alg».proof.Proof.Gen.KernelIdeal.Frame
import proofs.«414612_j14740327760424_4_alg».proof.Proof.LinkScore
import Idealize.ShloMosaic.Lib.ValueIdx
import Idealize.ShloMosaic.Lib.KernelVsHost

noncomputable section

namespace Cert.KernelIdeal.PaddedRows

open Cert.KernelIdeal Cert.KernelIdeal.Gen Idealize.ShloMosaic Idealize.ShloMosaic.ValueIdx

/-- A 64-lane table padded at the end, read below the padding. -/
theorem pad64_apply (X : S500000x64.Idx → EReal) (z : S_.Idx → EReal) (r' : Fin 503808) (r : Fin 500000) (h : r'.val = r.val) (d : Fin 64) :
    pad S503808x64 ![0, 0] ![3808, 0] ![0, 0] X z pads_S500000x64_S503808x64_038080_000 h_S_ (ix2 r' d) = X (ix2 r d) :=
  pad_apply_of_inside _ _ _ X z pads_S500000x64_S503808x64_038080_000 h_S_ (ix2 r' d) (ix2 r d) (fun a => by
    match a with
    | ⟨0, _⟩ => show r'.val = 0 + r.val * (0 + 1); omega
    | ⟨1, _⟩ => show d.val = 0 + d.val * (0 + 1); omega)

/-- A 16-feature array padded at the end, read below the padding. -/
theorem pad16_apply (X : S500000x16.Idx → EReal) (z : S_.Idx → EReal) (r' : Fin 503808) (r : Fin 500000) (h : r'.val = r.val) (k : Fin 16) :
    pad S503808x16 ![0, 0] ![3808, 0] ![0, 0] X z pads_S500000x16_S503808x16_038080_000 h_S_ (ix2 r' k) = X (ix2 r k) :=
  pad_apply_of_inside _ _ _ X z pads_S500000x16_S503808x16_038080_000 h_S_ (ix2 r' k) (ix2 r k) (fun a => by
    match a with
    | ⟨0, _⟩ => show r'.val = 0 + r.val * (0 + 1); omega
    | ⟨1, _⟩ => show k.val = 0 + k.val * (0 + 1); omega)

/-- The score at a padded row below 500000, of arrays padded at the end: the score of the arrays at that row. -/
theorem score_padded (c : EReal) (Ps Ts Gs Pd Td Gd : S500000x64.Idx → EReal) (Xs Xd : S500000x16.Idx → EReal) (z : S_.Idx → EReal)
    (Ws Wd : S16x64.Idx → EReal) (bs bd : S64.Idx → EReal) (r' : Fin 503808) (r : Fin 500000) (h : r'.val = r.val) :
    LinkScore.score c
        (pad S503808x64 ![0, 0] ![3808, 0] ![0, 0] Ps z pads_S500000x64_S503808x64_038080_000 h_S_)
        (pad S503808x64 ![0, 0] ![3808, 0] ![0, 0] Ts z pads_S500000x64_S503808x64_038080_000 h_S_)
        (pad S503808x64 ![0, 0] ![3808, 0] ![0, 0] Gs z pads_S500000x64_S503808x64_038080_000 h_S_)
        (pad S503808x16 ![0, 0] ![3808, 0] ![0, 0] Xs z pads_S500000x16_S503808x16_038080_000 h_S_) Ws bs
        (pad S503808x64 ![0, 0] ![3808, 0] ![0, 0] Pd z pads_S500000x64_S503808x64_038080_000 h_S_)
        (pad S503808x64 ![0, 0] ![3808, 0] ![0, 0] Td z pads_S500000x64_S503808x64_038080_000 h_S_)
        (pad S503808x64 ![0, 0] ![3808, 0] ![0, 0] Gd z pads_S500000x64_S503808x64_038080_000 h_S_)
        (pad S503808x16 ![0, 0] ![3808, 0] ![0, 0] Xd z pads_S500000x16_S503808x16_038080_000 h_S_) Wd bd r'
      = LinkScore.score c Ps Ts Gs Xs Ws bs Pd Td Gd Xd Wd bd r :=
  LinkScore.score_congr c Ps Ts Gs Xs Pd Td Gd Xd _ _ _ _ _ _ _ _ Ws bs Wd bd r r'
    (fun d => pad64_apply Ps z r' r h d) (fun d => pad64_apply Ts z r' r h d) (fun d => pad64_apply Gs z r' r h d)
    (fun k => pad16_apply Xs z r' r h k)
    (fun d => pad64_apply Pd z r' r h d) (fun d => pad64_apply Td z r' r h d) (fun d => pad64_apply Gd z r' r h d)
    (fun k => pad16_apply Xd z r' r h k)

end Cert.KernelIdeal.PaddedRows

end
-- ==== Proof.RefScore.lean ====
/-
  The reference's result, read at one edge.

  After its six gathers the reference adds the three gathered tables of each endpoint, scales by the shared constant,
  adds the endpoint's projected features (a [500000,16]·[16,64] product plus the bias laid along the rows), multiplies
  the two endpoints' embeddings and sums over the 64 lanes from a zero initial value. Read at edge `i` that is
  `LinkScore.score` of the six gathered tables (kept as they stand: which rows they gather is the tables' own
  business), the two feature arrays, the weights and the biases.
-/
import proofs.«414612_j14740327760424_4_alg».proof.Proof.RefRead
import proofs.«414612_j14740327760424_4_alg».proof.Proof.LinkScore
import Idealize.ShloMosaic.Lib.ValueIdx
import Idealize.ShloMosaic.PureOps.Ideal.Laws

noncomputable section

namespace Cert.ReferenceIdeal.RefScore

open Cert.ReferenceIdeal Cert.ReferenceIdeal.ReadP Idealize.ShloMosaic Idealize.ShloMosaic.ValueIdx

/-- The projected features of the source at (r, d): the sum over the 16 features plus the bias at lane `d`. -/
theorem proj_src (x3 : (⟨S500000x16, .f32⟩ : BufTy).Contents (Elt Ideal)) (x8 : (⟨S16x64, .f32⟩ : BufTy).Contents (Elt Ideal))
    (x9 : (⟨S64, .f32⟩ : BufTy).Contents (Elt Ideal)) (r : Fin 500000) (d : Fin 64) :
    val_main_v3 (F := Ideal) x3 x8 x9 (ix2 r d) = ∑ k : Fin 16, x3 (ix2 r k) * x8 (ix2 k d) + x9 (ix1 d) := by
  rw [val_main_v3_apply, val_main_v0_apply, val_main_v2_apply, val_main_v1_apply]
  have el : ∀ k : Fin 16, lidx_main_v0 (ix2 r d) k = ix2 r k := fun k => funext fun a => Fin.ext (by
    match a with
    | ⟨0, _⟩ => rfl
    | ⟨1, _⟩ => rfl)
  have er : ∀ k : Fin 16, ridx_main_v0 (ix2 r d) k = ix2 k d := fun k => funext fun a => Fin.ext (by
    match a with
    | ⟨0, _⟩ => rfl
    | ⟨1, _⟩ => rfl)
  have eb : idx_main_v1 (idx_main_v2 (ix2 r d)) = ix1 d := funext fun a => Fin.ext (by
    match a with
    | ⟨0, _⟩ => rfl)
  simp only [el, er, eb]
  rfl

/-- The same for the destination. -/
theorem proj_dst (x4 : (⟨S500000x16, .f32⟩ : BufTy).Contents (Elt Ideal)) (x10 : (⟨S16x64, .f32⟩ : BufTy).Contents (Elt Ideal))
    (x11 : (⟨S64, .f32⟩ : BufTy).Contents (Elt Ideal)) (r : Fin 500000) (d : Fin 64) :
    val_main_v7 (F := Ideal) x4 x10 x11 (ix2 r d) = ∑ k : Fin 16, x4 (ix2 r k) * x10 (ix2 k d) + x11 (ix1 d) := by
  rw [val_main_v7_apply, val_main_v4_apply, val_main_v6_apply, val_main_v5_apply]
  have el : ∀ k : Fin 16, lidx_main_v4 (ix2 r d) k = ix2 r k := fun k => funext fun a => Fin.ext (by
    match a with
    | ⟨0, _⟩ => rfl
    | ⟨1, _⟩ => rfl)
  have er : ∀ k : Fin 16, ridx_main_v4 (ix2 r d) k = ix2 k d := fun k => funext fun a => Fin.ext (by
    match a with
    | ⟨0, _⟩ => rfl
    | ⟨1, _⟩ => rfl)
  have eb : idx_main_v5 (idx_main_v6 (ix2 r d)) = ix1 d := funext fun a => Fin.ext (by
    match a with
    | ⟨0, _⟩ => rfl)
  simp only [el, er, eb]
  rfl

/-- The source's embedding (`%315`) at (r, d). -/
theorem embed_src (x0 x1 x2 : (⟨S2x500000, .i32⟩ : BufTy).Contents (Elt Ideal)) (x3 : (⟨S500000x16, .f32⟩ : BufTy).Contents (Elt Ideal))
    (x5 : (⟨S110000x64, .f32⟩ : BufTy).Contents (Elt Ideal)) (x6 : (⟨S20000x64, .f32⟩ : BufTy).Contents (Elt Ideal))
    (x7 : (⟨S10000x64, .f32⟩ : BufTy).Contents (Elt Ideal)) (x8 : (⟨S16x64, .f32⟩ : BufTy).Contents (Elt Ideal))
    (x9 : (⟨S64, .f32⟩ : BufTy).Contents (Elt Ideal)) (r : Fin 500000) (d : Fin 64) :
    val_main_v315 (F := Ideal) x0 x1 x2 x3 x5 x6 x7 x8 x9 (ix2 r d)
      = LinkScore.endpoint (Ideal.ofBits .f32 0x3EAAAAAB#32) (val_main_v292 (F := Ideal) x0 x5) (val_main_v301 (F := Ideal) x1 x6)
          (val_main_v311 (F := Ideal) x2 x7) x3 x8 x9 r d := by
  rw [val_main_v315_apply, val_main_v314_apply, val_main_v312_apply, val_main_v302_apply, val_main_v313_apply, val_main_cst_85_apply,
    proj_src]
  rfl

/-- The destination's embedding (`%347`) at (r, d). -/
theorem embed_dst (x0 x1 x2 : (⟨S2x500000, .i32⟩ : BufTy).Contents (Elt Ideal)) (x4 : (⟨S500000x16, .f32⟩ : BufTy).Contents (Elt Ideal))
    (x5 : (⟨S110000x64, .f32⟩ : BufTy).Contents (Elt Ideal)) (x6 : (⟨S20000x64, .f32⟩ : BufTy).Contents (Elt Ideal))
    (x7 : (⟨S10000x64, .f32⟩ : BufTy).Contents (Elt Ideal)) (x10 : (⟨S16x64, .f32⟩ : BufTy).Contents (Elt Ideal))
    (x11 : (⟨S64, .f32⟩ : BufTy).Contents (Elt Ideal)) (r : Fin 500000) (d : Fin 64) :
    val_main_v347 (F := Ideal) x0 x1 x2 x4 x5 x6 x7 x10 x11 (ix2 r d)
      = LinkScore.endpoint (Ideal.ofBits .f32 0x3EAAAAAB#32) (val_main_v324 (F := Ideal) x0 x5) (val_main_v333 (F := Ideal) x1 x6)
          (val_main_v343 (F := Ideal) x2 x7) x4 x10 x11 r d := by
  rw [val_main_v347_apply, val_main_v346_apply, val_main_v344_apply, val_main_v334_apply, val_main_v345_apply, val_main_cst_92_apply,
    proj_dst]
  rfl

/-- THE REFERENCE'S RESULT at edge `i`: the score of its gathered tables, features, weights and biases. -/
theorem result_apply (x0 x1 x2 : (⟨S2x500000, .i32⟩ : BufTy).Contents (Elt Ideal)) (x3 x4 : (⟨S500000x16, .f32⟩ : BufTy).Contents (Elt Ideal))
    (x5 : (⟨S110000x64, .f32⟩ : BufTy).Contents (Elt Ideal)) (x6 : (⟨S20000x64, .f32⟩ : BufTy).Contents (Elt Ideal))
    (x7 : (⟨S10000x64, .f32⟩ : BufTy).Contents (Elt Ideal)) (x8 : (⟨S16x64, .f32⟩ : BufTy).Contents (Elt Ideal))
    (x9 : (⟨S64, .f32⟩ : BufTy).Contents (Elt Ideal)) (x10 : (⟨S16x64, .f32⟩ : BufTy).Contents (Elt Ideal))
    (x11 : (⟨S64, .f32⟩ : BufTy).Contents (Elt Ideal)) (i : S500000.Idx) :
    val_main_v349 (F := Ideal) x0 x1 x2 x3 x4 x5 x6 x7 x8 x9 x10 x11 i
      = LinkScore.score (Ideal.ofBits .f32 0x3EAAAAAB#32)
          (val_main_v292 (F := Ideal) x0 x5) (val_main_v301 (F := Ideal) x1 x6) (val_main_v311 (F := Ideal) x2 x7) x3 x8 x9
          (val_main_v324 (F := Ideal) x0 x5) (val_main_v333 (F := Ideal) x1 x6) (val_main_v343 (F := Ideal) x2 x7) x4 x10 x11
          ⟨(i 0).val, (i 0).isLt⟩ := by
  rw [val_main_v349_apply, val_main_cst_93_apply]
  show Ideal.ofBits .f32 0x00000000#32 + _ = _
  rw [Ideal.ofBits_zero_f32, zero_add]
  unfold LinkScore.score
  refine Finset.sum_congr rfl fun d _ => ?_
  have e : idx_main_v349 i d = ix2 (⟨(i 0).val, (i 0).isLt⟩ : Fin 500000) d := funext fun a => Fin.ext (by
    match a with
    | ⟨0, _⟩ => rfl
    | ⟨1, _⟩ => rfl)
  rw [e, val_main_v348_apply, embed_src, embed_dst]
  rfl

end Cert.ReferenceIdeal.RefScore

end
-- ==== Proof.lean ====
/-
  The proof of `Cert.Claim`: the kernel computes the reference's link scores.

  Both programs propagate three relation embeddings over their edge lists with host operations, gather the propagated
  tables at the edges' endpoints, and score every edge `r` by
      ∑ d, ((P r d + T r d + G r d) · c + (∑ k, X r k · W k d + b d)) · (the same of the destination's arrays)
  (`LinkScore.score`). The reference does all of it with host operations over the 500000 edges. The kernel's program pads
  the gathered tables and the features to 123 blocks of 4096 rows, scores the padded rows block by block in the region,
  and keeps the first 500000.
  * The body's stored block is the score of its loaded blocks (`BodyScore`); a block's row is a row of its array, the 123
    blocks tile the output, and the host operation after the region keeps the rows below 500000 (`ArrayScore`).
  * The arrays the region stages are the paddings of the very tables the reference gathers — the two host programs are the
    same operations of the same arguments (`HostTables`) — and a row below the padding is the table's row (`PaddedRows`).
  * The reference's result at an edge is the score of its gathered tables (`RefScore`), over the run of its operations.
  The sums are in the same order on both sides and no law beyond reading the arrays at an index is used, so the
  precondition (finite inputs) is never opened. The idealization pass rewrote nothing, so `preserves` asks nothing.
-/
import proofs.«414612_j14740327760424_4_alg».proof.Defs
import proofs.«414612_j14740327760424_4_alg».proof.Proof.Gen.Kernel
import proofs.«414612_j14740327760424_4_alg».proof.Proof.Gen.Kernel.Skeleton
import proofs.«414612_j14740327760424_4_alg».proof.Proof.Gen.Kernel.Launch
import proofs.«414612_j14740327760424_4_alg».proof.Proof.Gen.Kernel.Points
import proofs.«414612_j14740327760424_4_alg».proof.Proof.Gen.Kernel.Frame
import proofs.«414612_j14740327760424_4_alg».proof.Proof.Gen.KernelIdeal
import proofs.«414612_j14740327760424_4_alg».proof.Proof.Gen.KernelIdeal.Skeleton
import proofs.«414612_j14740327760424_4_alg».proof.Proof.Gen.KernelIdeal.Launch
import proofs.«414612_j14740327760424_4_alg».proof.Proof.Gen.KernelIdeal.Points
import proofs.«414612_j14740327760424_4_alg».proof.Proof.Gen.KernelIdeal.Frame
import proofs.«414612_j14740327760424_4_alg».proof.Proof.Gen.ReferenceIdeal
import proofs.«414612_j14740327760424_4_alg».proof.Proof.Gen.Pre_finite_inputs
import proofs.«414612_j14740327760424_4_alg».proof.Proof.LinkScore
import proofs.«414612_j14740327760424_4_alg».proof.Proof.BodyScore
import proofs.«414612_j14740327760424_4_alg».proof.Proof.ArrayScore
import proofs.«414612_j14740327760424_4_alg».proof.Proof.HostTables
import proofs.«414612_j14740327760424_4_alg».proof.Proof.PaddedRows
import proofs.«414612_j14740327760424_4_alg».proof.Proof.RefRead
import proofs.«414612_j14740327760424_4_alg».proof.Proof.RefRun
import proofs.«414612_j14740327760424_4_alg».proof.Proof.RefScore
import Idealize.ShloMosaic.Adequacy
import Idealize.ShloMosaic.Init

noncomputable section

namespace Cert.Proof

open Idealize.ShloMosaic Idealize.ShloMosaic.TcCoe Idealize.SL.Sem Idealize.ShloMosaic.ValueIdx

/-! ## The common value -/

/-- The link scores, as a function of the kernel's argument arrays: the score of the reference's six gathered tables,
    the features, the weights and the biases, at every edge. -/
def linkScores (m : (ℓ : Loc Cert.KernelIdeal.nD Cert.KernelIdeal.τ Cert.KernelIdeal.sig) → Buf (Elt Ideal) ℓ) (c : Dev Cert.KernelIdeal.nD) :
    Cert.KernelIdeal.S500000.Idx → EReal := fun i =>
  LinkScore.score (Ideal.ofBits .f32 0x3EAAAAAB#32)
    (Cert.ReferenceIdeal.ReadP.val_main_v292 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
    (Cert.ReferenceIdeal.ReadP.val_main_v301 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)))
    (Cert.ReferenceIdeal.ReadP.val_main_v311 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (Cert.ReferenceIdeal.ReadP.val_main_v324 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
    (Cert.ReferenceIdeal.ReadP.val_main_v333 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)))
    (Cert.ReferenceIdeal.ReadP.val_main_v343 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    ⟨(i 0).val, (i 0).isLt⟩

/-! ## The kernel's side -/

section Kernel

open Cert.KernelIdeal Cert.KernelIdeal.Gen

/-- The body's block at any index of the block (`BodyScore.out_apply`, the index split into its one coordinate). -/
theorem body_fact : Cert.KernelIdeal.ArrayScore.BodyFact := fun x0 x1 x2 x3 x4 x5 x6 x7 x8 x9 x10 x11 y =>
  (congrArg (out0_12 (F := Ideal) x0 x1 x2 x3 x4 x5 x6 x7 x8 x9 x10 x11) (eq_ix1 y)).trans
    (Cert.KernelIdeal.BodyScore.out_apply x0 x1 x2 x3 x4 x5 x6 x7 x8 x9 x10 x11 (y 0))

/-- The kernel's result at edge `i`: the staged arrays are the padded tables, and the padding is out of reach. -/
theorem kernel_rows (m : (ℓ : Loc nD τ sig) → Buf (Elt Ideal) ℓ) (c : Dev nD) (i : S500000.Idx) :
    Cert.KernelIdeal.ArrayScore.rows m c (Cert.KernelIdeal.ArrayScore.edgeRow i) = linkScores m c i := by
  unfold Cert.KernelIdeal.ArrayScore.rows linkScores
  rw [Cert.KernelIdeal.HostTables.up_src m c, Cert.KernelIdeal.HostTables.ut_src m c, Cert.KernelIdeal.HostTables.utag_src m c,
    Cert.KernelIdeal.HostTables.src_feat m c, Cert.KernelIdeal.HostTables.up_dst m c, Cert.KernelIdeal.HostTables.ut_dst m c,
    Cert.KernelIdeal.HostTables.utag_dst m c, Cert.KernelIdeal.HostTables.dst_feat m c,
    V_main_arg8 m c, V_main_arg9 m c, V_main_arg10 m c, V_main_arg11 m c]
  exact Cert.KernelIdeal.PaddedRows.score_padded _ _ _ _ _ _ _ _ _ _ _ _ _ _ _ ⟨(i 0).val, (i 0).isLt⟩ rfl

end Kernel

/-! ## The reference's side -/

/-- The term the reference's run names is its last stage (the two are one composed term). -/
theorem ref_stage {F : FTy → Type} [FloatOps F]
    (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v349 m c
      = Cert.ReferenceIdeal.ReadP.val_main_v349 (F := F)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11)) := by
  unfold Cert.ReferenceIdeal.ValueP.res_main_v349; rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments the kernel's run ends with its result at `linkScores` of its arguments
    (`ArrayScore.run`, `kernel_rows`), and the reference's at the score of ITS arguments (`ValueP.run`, `ref_stage`,
    `RefScore.result_apply`), which are the kernel's. -/
theorem algebraic : Cert.algebraic_KernelIdeal_ReferenceIdeal := by
  intro m ρ m' ρ' _ hagree
  refine ⟨fun c => linkScores m c, ?_, ?_⟩
  · exact (θ_run Cert.KernelIdeal.defs _ _).mono
      (fun _ h c => ⟨(h c).1.trans (funext fun i => kernel_rows m c i), (h c).2⟩)
      (Cert.KernelIdeal.ArrayScore.run m ρ body_fact)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11⟩ := hagree c
    rw [ref_stage m' c, h0, h1, h2, h3, h4, h5, h6, h7, h8, h9, h10, h11]
    funext i
    unfold linkScores
    exact Cert.ReferenceIdeal.RefScore.result_apply _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
